-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn {F : FTy → Type} [FloatOps F] (main_arg0 : FVec F S10000x128 .f32) (main_arg1 : IVec S2x640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : IVec S1x640000 32 := (extractStridedSlice S1x640000 ![0, 0] · slices_S2x640000_S1x640000_0_0) main_arg1
  let main_v5 : IVec S640000 32 := shapeCast S640000 main_v4 shapeCasts_S1x640000_S640000
  let main_c_0 : IVec S_ 32 := constantI S_ 32 0#32
  let main_v6 : IVec S640000 32 := broadcastInDim S640000 ![] bcast_S_S640000 main_c_0
  let main_v7 : IVec S640000 1 := cmpi .sge main_v5 main_v6
  let main_c_1 : IVec S_ 1 := constantI S_ 1 1#1
  let main_v8 : IVec S_ 1 := (fun x v => Host.reduce IntOp.andi x v reducesTo_S640000_S_d0 h_S_) main_v7 main_c_1
  let main_v9 : IVec S_ 1 := andi main_v3 main_v8
  let main_v10 : IVec S1x640000 32 := (extractStridedSlice S1x640000 ![0, 0] · slices_S2x640000_S1x640000_0_0) main_arg1
  let main_v11 : IVec S640000 32 := shapeCast S640000 main_v10 shapeCasts_S1x640000_S640000
  let main_c_2 : IVec S_ 32 := constantI S_ 32 10000#32
  let main_v12 : IVec S640000 32 := broadcastInDim S640000 ![] bcast_S_S640000 main_c_2
  let main_v13 : IVec S640000 1 := cmpi .slt main_v11 main_v12
  let main_c_3 : IVec S_ 1 := constantI S_ 1 1#1
  let main_v14 : IVec S_ 1 := (fun x v => Host.reduce IntOp.andi x v reducesTo_S640000_S_d0 h_S_) main_v13 main_c_3
  let main_v15 : IVec S_ 1 := andi main_v9 main_v14
  main_v15
-- ==== Kernel.lean ====
abbrev S10000x128 : Shape := ⟨2, ![10000, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S641024 : Shape := ⟨1, ![641024]⟩
abbrev S2x320512x1 : Shape := ⟨3, ![2, 320512, 1]⟩
abbrev S2x320512 : Shape := ⟨2, ![2, 320512]⟩
abbrev S2x1x320512 : Shape := ⟨3, ![2, 1, 320512]⟩
abbrev S10240x128 : Shape := ⟨2, ![10240, 128]⟩
abbrev S2x10240x128 : Shape := ⟨3, ![2, 10240, 128]⟩
abbrev S1x1024x1 : Shape := ⟨3, ![1, 1024, 1]⟩
abbrev S1x1x1024 : Shape := ⟨3, ![1, 1, 1024]⟩
abbrev S1x10240x128 : Shape := ⟨3, ![1, 10240, 128]⟩
abbrev S1024x128 : Shape := ⟨2, ![1024, 128]⟩
abbrev S1024x1 : Shape := ⟨2, ![1024, 1]⟩
abbrev S1x1024 : Shape := ⟨2, ![1, 1024]⟩
abbrev S2048x128 : Shape := ⟨2, ![2048, 128]⟩
abbrev S1x2048 : Shape := ⟨2, ![1, 2048]⟩
abbrev S1024x2048 : Shape := ⟨2, ![1024, 2048]⟩
abbrev S2048x1 : Shape := ⟨2, ![2048, 1]⟩
abbrev S2048x1024 : Shape := ⟨2, ![2048, 1024]⟩
abbrev S1x2048x128 : Shape := ⟨3, ![1, 2048, 128]⟩

abbrev nBuf : Space → Nat
  | .hbm => 26
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S1x640000, .i32⟩
  | .hbm, ⟨3, _⟩ => ⟨S640000, .i32⟩
  | .hbm, ⟨4, _⟩ => ⟨S1x640000, .i32⟩
  | .hbm, ⟨5, _⟩ => ⟨S640000, .i32⟩
  | .hbm, ⟨6, _⟩ => ⟨S_, .i32⟩
  | .hbm, ⟨7, _⟩ => ⟨S_, .i32⟩
  | .hbm, ⟨8, _⟩ => ⟨S641024, .i32⟩
  | .hbm, ⟨9, _⟩ => ⟨S_, .i32⟩
  | .hbm, ⟨10, _⟩ => ⟨S_, .i32⟩
  | .hbm, ⟨11, _⟩ => ⟨S641024, .i32⟩
  | .hbm, ⟨12, _⟩ => ⟨S2x320512x1, .i32⟩
  | .hbm, ⟨13, _⟩ => ⟨S2x320512, .i32⟩
  | .hbm, ⟨14, _⟩ => ⟨S2x1x320512, .i32⟩
  | .hbm, ⟨15, _⟩ => ⟨S10000x128, .bf16⟩
  | .hbm, ⟨16, _⟩ => ⟨S_, .i32⟩
  | .hbm, ⟨17, _⟩ => ⟨S_, .bf16⟩
  | .hbm, ⟨18, _⟩ => ⟨S10240x128, .bf16⟩
  | .hbm, ⟨19, _⟩ => ⟨S2x10240x128, .f32⟩
  | .hbm, ⟨20, _⟩ => ⟨S1x10240x128, .f32⟩
  | .hbm, ⟨21, _⟩ => ⟨S10240x128, .f32⟩
  | .hbm, ⟨22, _⟩ => ⟨S1x10240x128, .f32⟩
  | .hbm, ⟨23, _⟩ => ⟨S10240x128, .f32⟩
  | .hbm, ⟨24, _⟩ => ⟨S10240x128, .f32⟩
  | .hbm, ⟨25, _⟩ => ⟨S10000x128, .f32⟩
  | .local _ .vmem, ⟨0, _⟩ => ⟨S10240x128, .bf16⟩
  | .local _ .vmem, ⟨1, _⟩ => ⟨S1x1024x1, .i32⟩
  | .local _ .vmem, ⟨2, _⟩ => ⟨S1x1024x1, .i32⟩
  | .local _ .vmem, ⟨3, _⟩ => ⟨S1x1x1024, .i32⟩
  | .local _ .vmem, ⟨4, _⟩ => ⟨S1x1x1024, .i32⟩
  | .local _ .vmem, ⟨5, _⟩ => ⟨S1x10240x128, .f32⟩
  | .local _ .vmem, ⟨6, _⟩ => ⟨S1x10240x128, .f32⟩
  | .local _ .vmem, ⟨7, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 313], ![false, false]⟩

@[reducible] def k0_t1_loop : Scf.Loop 32 :=
  let c0_i32_8 : BitVec 32 := 0#32
  let c5_i32 : BitVec 32 := 5#32
  let v11 : BitVec 32 := Scalar.addi c0_i32_8 c5_i32
  let c1_i32 : BitVec 32 := 1#32
  ⟨c0_i32_8, v11, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c2048_i32 : BitVec 32 := 2048#32
  let v15 : BitVec 32 := Scalar.muli arg7 c2048_i32
  v15
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c2048_i32 : BitVec 32 := 2048#32
  let v15 : BitVec 32 := Scalar.muli arg7 c2048_i32
  let v16 : BitVec 32 := v15
  let v17 : Index := Scalar.indexCast v16
  let c0_16 : Index := 0#32
  ![v17.toNat, 0]
@[reducible] def k0_t2_loop : Scf.Loop 32 :=
  let c0_i32_12 : BitVec 32 := 0#32
  let c5_i32_13 : BitVec 32 := 5#32
  let v14 : BitVec 32 := Scalar.addi c0_i32_12 c5_i32_13
  let c1_i32_14 : BitVec 32 := 1#32
  ⟨c0_i32_12, v14, c1_i32_14⟩
def k0_mult2 (k0_t2 : Fin k0_t2_loop.trips) : BitVec 32 :=
  let c0_i32_12 : BitVec 32 := 0#32
  let c1_i32_14 : BitVec 32 := 1#32
  let arg7 : BitVec 32 := Scf.iv c0_i32_12 c1_i32_14 k0_t2
  let c2048_i32 : BitVec 32 := 2048#32
  let v15 : BitVec 32 := Scalar.muli arg7 c2048_i32
  v15
def k0_off2 (k0_t2 : Fin k0_t2_loop.trips) : Fin 3 → Nat :=
  let c0_17 : Index := 0#32
  let c0_i32_12 : BitVec 32 := 0#32
  let c1_i32_14 : BitVec 32 := 1#32
  let arg7 : BitVec 32 := Scf.iv c0_i32_12 c1_i32_14 k0_t2
  let c2048_i32 : BitVec 32 := 2048#32
  let v15 : BitVec 32 := Scalar.muli arg7 c2048_i32
  let v16 : BitVec 32 := v15
  let v27 : Index := Scalar.indexCast v16
  let c0_18 : Index := 0#32
  ![0, v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10240x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10240x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  pads_S640000_S641024_010240 : S640000.Pads (![0] : Fin 1 → Nat) ![1024] ![0] S641024
  h_S_ : 0 < S_.numel
  shapeCasts_S641024_S2x320512x1 : S641024.ShapeCasts S2x320512x1
  shapeCasts_S641024_S2x320512 : S641024.ShapeCasts S2x320512
  bcast_S2x320512_S2x1x320512_0_2 : S2x320512.BroadcastsInDim S2x1x320512 (![0, 2] : Fin 2 → Fin S2x1x320512.rank)
  bitsLt_bf16_f32 : FTy.bits .bf16 < FTy.bits .f32
  pads_S10000x128_S10240x128_02400_000 : S10000x128.Pads (![0, 0] : Fin 2 → Nat) ![240, 0] ![0, 0] S10240x128
  inb_S1x10240x128_S1x10240x128_0_0_0 : ∀ a, (![0, 0, 0] : Fin 3 → Nat) a + S1x10240x128.size a ≤ S1x10240x128.size a
  h_S1x10240x128 : 0 < S1x10240x128.numel
  shapeCasts_S1x10240x128_S10240x128 : S1x10240x128.ShapeCasts S10240x128
  shapeCasts_S10240x128_S1x10240x128 : S10240x128.ShapeCasts S1x10240x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  h_S2048x128 : 0 < S2048x128.numel
  shapeCasts_S2048x128_S2048x128 : S2048x128.ShapeCasts S2048x128
  iota_S1x2048_d1_w32 : S1x2048.Iotas .tc 32 [1]
  broadcasts_S1024x1_S1024x2048 : S1024x1.Broadcasts S1024x2048
  broadcasts_S1x2048_S1024x2048 : S1x2048.Broadcasts S1024x2048
  natLt_1_32 : 1 < 32
  iota_S2048x1_d0_w32 : S2048x1.Iotas .tc 32 [0]
  broadcasts_S2048x1_S2048x1024 : S2048x1.Broadcasts S2048x1024
  broadcasts_S1x1024_S2048x1024 : S1x1024.Broadcasts S2048x1024
  h_S1x2048x128 : 0 < S1x2048x128.numel
  shapeCasts_S1x2048x128_S2048x128 : S1x2048x128.ShapeCasts S2048x128
  shapeCasts_S2048x128_S1x2048x128 : S2048x128.ShapeCasts S1x2048x128
  slices_S2x10240x128_S1x10240x128_0_0_0 : S2x10240x128.Slices ![0, 0, 0] S1x10240x128
  slices_S2x10240x128_S1x10240x128_1_0_0 : S2x10240x128.Slices ![1, 0, 0] S1x10240x128
  slices_S10240x128_S10000x128_0_0 : S10240x128.Slices ![0, 0] S10000x128
  dot_S1024x2048_S2048x128_S1024x128_1_0_0_1_n_n_wf : DotDims.WF S1024x2048 S2048x128 S1024x128 [1] [0] [0] [1] [] []
  dot_S2048x1024_S1024x128_S2048x128_1_0_0_1_n_n_wf : DotDims.WF S2048x1024 S1024x128 S2048x128 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S10240x128.size a
  k0_t2_ok : k0_t2_loop.OK
  k0_mult2_dvd : ∀ k0_t2 : Fin k0_t2_loop.trips, 2048 ∣ (k0_mult2 k0_t2).toNat
  k0_off2_inb : ∀ k0_t2 : Fin k0_t2_loop.trips, ∀ a, (k0_off2 k0_t2) a + S1x2048x128.size a ≤ S1x10240x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10240x128.size a ≤ S10240x128.size a
  hwx0_0 : ∀ i : grid0.Coords, EltTy.bits .bf16 = 32 ∨ (Rect.block (s := S10240x128) S10240x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S2x320512x1.size a
  hwx0_1 : ∀ i : grid0.Coords, EltTy.bits .i32 = 32 ∨ (Rect.block (s := S2x320512x1) S1x1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S2x1x320512.size a
  hwx0_2 : ∀ i : grid0.Coords, EltTy.bits .i32 = 32 ∨ (Rect.block (s := S2x1x320512) S1x1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10240x128.size a ≤ S2x10240x128.size a
  hwx0_3 : ∀ i : grid0.Coords, EltTy.bits .f32 = 32 ∨ (Rect.block (s := S2x10240x128) S1x10240x128.size (cc0_transform_3 i) (hinb0_3 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v10) S10240x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x10240x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S1x640000, .i32⟩
  | .hbm, ⟨3, _⟩ => ⟨S640000, .i32⟩
  | .hbm, ⟨4, _⟩ => ⟨S1x640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S10000x128, .f32⟩
  | .hbm, ⟨17, _⟩ => ⟨S640000x1, .i32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.TripPieces.lean ====
/-
  What one trip of each of the body's two counted loops writes.

  The gather loop's trip `k` stores, over the whole scratch accumulator, the accumulator it found plus the product of
  the one-hot source matrix for table rows `2048 k … 2048 k + 2047` with those rows of the table.  The scatter loop's
  trip `k` stores, at rows `2048 k …` of the output block, what it found there plus the product of the one-hot
  destination matrix for those nodes with the gathered messages.  Each trip is one store of one payload of the
  contents it loads; both loops run five trips.
-/
import proofs.«425535_j10651518894406_2_alg».proof.Proof.Gen.KernelIdeal.Frame

set_option maxRecDepth 16384

noncomputable section

namespace Cert.MsgPass.K

open Idealize.ShloMosaic Idealize.ShloMosaic.TcCoe Idealize.SL.Sem
open Cert.KernelIdeal Cert.KernelIdeal.Gen

variable {F : FTy → Type} [FloatOps F]

/-- The gather loop runs five trips. -/
theorem trips1 : k0_t1_loop.trips = 5 := by decide
/-- The scatter loop runs five trips. -/
theorem trips2 : k0_t2_loop.trips = 5 := by decide

/-- A gather trip's one piece: the whole accumulator, at the payload of the table rows and the accumulator it loads. -/
theorem tripL1 (𝒱 : Variants) (c : Dev nD) (bd : Option 𝒱.V) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole)
    (v7 : Vec F S1x1024x1 .i32) (X_arg2 : BufTy.Contents (Elt F) arg2.view.ty) (k : Fin k0_t1_loop.trips)
    (f : BufTy.Contents (Elt F) arg6.view.ty) :
    tripL_k0_t1 (F := F) 𝒱 c bd i arg2 harg2 arg3 harg3 arg4 harg4 arg5 harg5 arg6 harg6 v7 X_arg2 k f
      = [⟨Rect.unit (s := S1024x128) ![0, 0] S1024x128.size inb_S1024x128_S1024x128_0_0,
          k0_pay3 v7 k (View.readAt (Elt F) arg2.view (Rect.unit (s := S10240x128) (k0_off1 k) S2048x128.size (k0_off1_inb k)).toLoadRect X_arg2)
            (View.readAt (Elt F) arg6.view (Rect.unit (s := S1024x128) ![0, 0] S1024x128.size inb_S1024x128_S1024x128_0_0).toLoadRect f)⟩] := by
  unfold tripL_k0_t1 trip_k0_t1
  rfl

/-- A scatter trip's one piece: rows `2048 k …` of the block, at the payload of what it loads there. -/
theorem tripL2 (𝒱 : Variants) (c : Dev nD) (bd : Option 𝒱.V) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole)
    (v9 : Vec F S1x1x1024 .i32) (v12 : Vec F S1024x128 .f32) (k : Fin k0_t2_loop.trips)
    (f : BufTy.Contents (Elt F) arg5.view.ty) :
    tripL_k0_t2 (F := F) 𝒱 c bd i arg2 harg2 arg3 harg3 arg4 harg4 arg5 harg5 arg6 harg6 v9 v12 k f
      = [⟨Rect.unit (s := S1x10240x128) (k0_off2 k) S1x2048x128.size (k0_off2_inb k),
          k0_pay4 v9 v12 k (View.readAt (Elt F) arg5.view (Rect.unit (s := S1x10240x128) (k0_off2 k) S1x2048x128.size (k0_off2_inb k)).toLoadRect f)⟩] := by
  unfold tripL_k0_t2 trip_k0_t2
  rfl

end Cert.MsgPass.K

end
-- ==== Proof.BodyFn.lean ====
/-
  One grid point of the kernel as a function of what it reads.

  The body zeroes its scratch accumulator, then five gather trips each add, for table rows `2048 k …`, the one-hot
  product; after them the accumulator holds the gathered messages.  Then five scatter trips each rewrite rows
  `2048 k …` of the output block: what the block held there before the point (zero at a core's first chunk, the
  previous chunk's result otherwise) plus the one-hot product with the messages.  The five slices tile the block,
  so the entry at padded node `n` comes from trip `n / 2048`, local row `n % 2048`.  This holds at every float
  instance: it is bookkeeping of loads and stores, not arithmetic.
-/
import proofs.«425535_j10651518894406_2_alg».proof.Proof.TripPieces
import Idealize.ShloMosaic.Lib.ValueIdx
import Idealize.ShloMosaic.Lib.Pipeline.Value

set_option maxRecDepth 16384

noncomputable section

namespace Cert.MsgPass.K

open Idealize.ShloMosaic Idealize.ShloMosaic.TcCoe Idealize.ShloMosaic.ValueIdx Idealize.SL.Sem
open Cert.KernelIdeal Cert.KernelIdeal.Gen

variable {F : FTy → Type} [FloatOps F]

/-- Rows `2048 k … 2048 k + 2047` of the table block. -/
abbrev xslice (x0 : Vec F S10240x128 .bf16) (k : Fin k0_t1_loop.trips) : Vec F S2048x128 .bf16 :=
  View.ld (Val := Elt F) x0 (Rect.unit (s := S10240x128) (k0_off1 k) S2048x128.size (k0_off1_inb k))

/-- The scratch accumulator after the first `k` gather trips, from its zero fill. -/
def scratchAfter (x0 : Vec F S10240x128 .bf16) (x1 : Vec F S1x1024x1 .i32) :
    (k : ℕ) → k ≤ k0_t1_loop.trips → Vec F S1024x128 .f32
  | 0, _ => k0_pay2
  | k + 1, h => k0_pay3 x1 ⟨k, h⟩ (xslice x0 ⟨k, h⟩) (scratchAfter x0 x1 k (Nat.le_of_succ_le h))

/-- The gathered messages: the accumulator after all the gather trips. -/
abbrev msgOf (x0 : Vec F S10240x128 .bf16) (x1 : Vec F S1x1024x1 .i32) : Vec F S1024x128 .f32 :=
  scratchAfter x0 x1 k0_t1_loop.trips le_rfl

/-- Rows `2048 k …` of an output block. -/
abbrev oslice (prev : Vec F S1x10240x128 .f32) (k : Fin k0_t2_loop.trips) : Vec F S1x2048x128 .f32 :=
  View.ld (Val := Elt F) prev (Rect.unit (s := S1x10240x128) (k0_off2 k) S1x2048x128.size (k0_off2_inb k))

/-- The scatter trip that writes the entry `y` of the block: its padded node divided by 2048. -/
def sliceOf (y : S1x10240x128.Idx) : Fin k0_t2_loop.trips :=
  ⟨(y 1).val / 2048, by rw [trips2]; have h : (y 1).val < 10240 := (y 1).isLt; omega⟩

/-- The entry's place inside that trip's slice. -/
def localOf (y : S1x10240x128.Idx) : S1x2048x128.Idx :=
  ix3 (0 : Fin 1) (⟨(y 1).val % 2048, Nat.mod_lt _ (by decide)⟩ : Fin 2048) (⟨(y 2).val, (y 2).isLt⟩ : Fin 128)

/-- What the body leaves in the output block, from the table block `x0`, the source words `x1`, the destination
    words `x2` and the block's contents `prev` when the scatter loop starts. -/
def bodyFn (x0 : Vec F S10240x128 .bf16) (x1 : Vec F S1x1024x1 .i32) (x2 : Vec F S1x1x1024 .i32)
    (prev : Vec F S1x10240x128 .f32) : Vec F S1x10240x128 .f32 := fun y =>
  k0_pay4 x2 (msgOf x0 x1) (sliceOf y) (oslice prev (sliceOf y)) (localOf y)

/-! ## Small facts about whole-buffer reads -/

theorem hz2 : (![0, 0] : Fin 2 → Nat) = fun _ => 0 := funext fun a => by fin_cases a <;> rfl
theorem hz3 : (![0, 0, 0] : Fin 3 → Nat) = fun _ => 0 := funext fun a => by fin_cases a <;> rfl

/-- Reading the whole buffer after a list of stores whose LAST store filled the whole buffer gives that store's
    value, whatever was there before. -/
theorem read_whole_cons {sig : RefSig} {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h
  funext x
  have := View.read_writes_cons_emb v f (Rect.whole S) w L x
  rwa [Rect.emb_whole_apply] at this

/-! ## The gather loop: the accumulator after `k` trips -/

/-- One more gather trip: the accumulator read whole after trips `0 … k` is trip `k`'s stored value of the table
    rows it loads and of the accumulator read whole after trips `0 … k - 1`. -/
theorem gather_step (𝒱 : Variants) (c : Dev nD) (bd : Option 𝒱.V) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole)
    (v7 : Vec F S1x1024x1 .i32) (X : BufTy.Contents (Elt F) arg2.view.ty) (G : BufTy.Contents (Elt F) arg6.view.ty)
    (k : Fin k0_t1_loop.trips) :
    arg6.view.read (Elt F) (arg6.view.writes (Elt F) G (pb_k0_t1 (F := F) 𝒱 c bd i arg2 harg2 arg3 harg3 arg4 harg4 arg5 harg5 arg6 harg6 v7 X G (k.val + 1)))
      = k0_pay3 v7 k (View.ld (Val := Elt F) (arg2.view.read (Elt F) X) (Rect.unit (s := S10240x128) (k0_off1 k) S2048x128.size (k0_off1_inb k)))
          (arg6.view.read (Elt F) (arg6.view.writes (Elt F) G (pb_k0_t1 (F := F) 𝒱 c bd i arg2 harg2 arg3 harg3 arg4 harg4 arg5 harg5 arg6 harg6 v7 X G k.val))) := by
  rw [pb_k0_t1_succ, tripL1, List.singleton_append, read_whole_cons arg6.view G hz2]
  congr 1
  exact View.ld_unit_zero (S := S1024x128) hz2 _ _

/-- The accumulator after `k` trips, started from its zero fill over anything, is `scratchAfter`. -/
theorem gather_eq (𝒱 : Variants) (c : Dev nD) (bd : Option 𝒱.V) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole)
    (x0 : Vec F S10240x128 .bf16) (x1 : Vec F S1x1024x1 .i32) (J : BufTy.Contents (Elt F) arg6.view.ty) :
    ∀ (k : ℕ) (hk : k ≤ k0_t1_loop.trips),
      arg6.view.read (Elt F) (arg6.view.writes (Elt F)
          (arg6.view.writes (Elt F) J [⟨Rect.unit (s := S1024x128) ![0, 0] S1024x128.size inb_S1024x128_S1024x128_0_0, k0_pay2⟩])
          (pb_k0_t1 (F := F) 𝒱 c bd i arg2 harg2 arg3 harg3 arg4 harg4 arg5 harg5 arg6 harg6 x1 (harg2.unread x0)
            (arg6.view.writes (Elt F) J [⟨Rect.unit (s := S1024x128) ![0, 0] S1024x128.size inb_S1024x128_S1024x128_0_0, k0_pay2⟩]) k))
        = scratchAfter x0 x1 k hk
  | 0, _ => by
    rw [pb_k0_t1.eq_1, View.writes_nil]
    exact read_whole_cons arg6.view J hz2 _ _ []
  | k + 1, hk => by
    rw [gather_step 𝒱 c bd i arg2 harg2 arg3 harg3 arg4 harg4 arg5 harg5 arg6 harg6 x1 (harg2.unread x0) _ ⟨k, hk⟩,
      gather_eq 𝒱 c bd i arg2 harg2 arg3 harg3 arg4 harg4 arg5 harg5 arg6 harg6 x0 x1 J k (Nat.le_of_succ_le hk), harg2.read_unread]
    rfl

/-! ## The scatter loop: its pieces are the five slices, each the stored value of what the block held there -/

/-- Trip `j`'s piece of the scatter loop started from contents `G5`. -/
abbrev piece2 (𝒱 : Variants) (c : Dev nD) (bd : Option 𝒱.V) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole)
    (v9 : Vec F S1x1x1024 .i32) (v12 : Vec F S1024x128 .f32) (G5 : BufTy.Contents (Elt F) arg5.view.ty)
    (j : Fin k0_t2_loop.trips) : View.Piece (Elt F) S1x10240x128 .f32 :=
  ⟨Rect.unit (s := S1x10240x128) (k0_off2 j) S1x2048x128.size (k0_off2_inb j),
    k0_pay4 v9 v12 j (View.readAt (Elt F) arg5.view (Rect.unit (s := S1x10240x128) (k0_off2 j) S1x2048x128.size (k0_off2_inb j)).toLoadRect
      (arg5.view.writes (Elt F) G5 (pb_k0_t2 (F := F) 𝒱 c bd i arg2 harg2 arg3 harg3 arg4 harg4 arg5 harg5 arg6 harg6 v9 v12 G5 j.val)))⟩

/-- The pieces before trip `k` are the pieces of the trips `j < k`. -/
theorem mem_pb2 (𝒱 : Variants) (c : Dev nD) (bd : Option 𝒱.V) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole)
    (v9 : Vec F S1x1x1024 .i32) (v12 : Vec F S1024x128 .f32) (G5 : BufTy.Contents (Elt F) arg5.view.ty) :
    ∀ (k : ℕ), k ≤ k0_t2_loop.trips → ∀ p, p ∈ pb_k0_t2 (F := F) 𝒱 c bd i arg2 harg2 arg3 harg3 arg4 harg4 arg5 harg5 arg6 harg6 v9 v12 G5 k ↔
      ∃ j : Fin k0_t2_loop.trips, j.val < k ∧ p = piece2 𝒱 c bd i arg2 harg2 arg3 harg3 arg4 harg4 arg5 harg5 arg6 harg6 v9 v12 G5 j
  | 0, _, p => by
    rw [pb_k0_t2.eq_1]
    constructor
    · intro h; exact absurd h List.not_mem_nil
    · rintro ⟨j, hj, -⟩; exact absurd hj (Nat.not_lt_zero _)
  | k + 1, hk, p => by
    rw [pb_k0_t2_succ 𝒱 c bd i arg2 harg2 arg3 harg3 arg4 harg4 arg5 harg5 arg6 harg6 v9 v12 G5 ⟨k, hk⟩, tripL2, List.singleton_append, List.mem_cons,
      mem_pb2 𝒱 c bd i arg2 harg2 arg3 harg3 arg4 harg4 arg5 harg5 arg6 harg6 v9 v12 G5 k (Nat.le_of_succ_le hk) p]
    constructor
    · rintro (rfl | ⟨j, hj, rfl⟩)
      · exact ⟨⟨k, hk⟩, Nat.lt_succ_self k, rfl⟩
      · exact ⟨j, Nat.lt_succ_of_lt hj, rfl⟩
    · rintro ⟨j, hj, rfl⟩
      rcases Nat.lt_succ_iff_lt_or_eq.mp hj with h | h
      · exact Or.inr ⟨j, h, rfl⟩
      · left
        have : j = ⟨k, hk⟩ := Fin.ext h
        subst this; rfl

/-- An entry of slice `j` lies in slice `j'` only if `j' = j`: the slices are rows `2048 j … 2048 j + 2047`. -/
theorem slice_sep (j j' : Fin k0_t2_loop.trips) (x : S1x2048x128.Idx)
    (h : (Rect.unit (s := S1x10240x128) (k0_off2 j) S1x2048x128.size (k0_off2_inb j)).idx x
        ∈ (Rect.unit (s := S1x10240x128) (k0_off2 j') S1x2048x128.size (k0_off2_inb j')).set) : j' = j := by
  have h1 := (Rect.mem_set_unit.mp h) 1
  rw [k0_off2_eq j'] at h1
  have e : (((Rect.unit (s := S1x10240x128) (k0_off2 j) S1x2048x128.size (k0_off2_inb j)).idx x) (1 : Fin 3) : Nat)
      = 2048 * j.val + (x 1).val := by
    show (k0_off2 j) 1 + 1 * (x 1).val = _
    rw [k0_off2_eq j]; show 2048 * j.val + 1 * (x 1).val = _; omega
  have hx : (x 1).val < 2048 := (x 1).isLt
  have h1' : 2048 * j'.val ≤ 2048 * j.val + (x 1).val ∧ 2048 * j.val + (x 1).val < 2048 * j'.val + 2048 := by
    rw [← e]; exact h1
  apply Fin.ext; omega

/-- What trip `j` loads from its slice is what the block held there when the loop started: the earlier trips wrote
    other slices. -/
theorem load2_eq (𝒱 : Variants) (c : Dev nD) (bd : Option 𝒱.V) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole)
    (v9 : Vec F S1x1x1024 .i32) (v12 : Vec F S1024x128 .f32) (G5 : BufTy.Contents (Elt F) arg5.view.ty)
    (j : Fin k0_t2_loop.trips) :
    View.readAt (Elt F) arg5.view (Rect.unit (s := S1x10240x128) (k0_off2 j) S1x2048x128.size (k0_off2_inb j)).toLoadRect
        (arg5.view.writes (Elt F) G5 (pb_k0_t2 (F := F) 𝒱 c bd i arg2 harg2 arg3 harg3 arg4 harg4 arg5 harg5 arg6 harg6 v9 v12 G5 j.val))
      = View.ld (Val := Elt F) (arg5.view.read (Elt F) G5) (Rect.unit (s := S1x10240x128) (k0_off2 j) S1x2048x128.size (k0_off2_inb j)) := by
  rw [View.readAt_writes_of_forall_not_mem]
  · rfl
  · intro x p hp hmem
    obtain ⟨j', hj', rfl⟩ := (mem_pb2 𝒱 c bd i arg2 harg2 arg3 harg3 arg4 harg4 arg5 harg5 arg6 harg6 v9 v12 G5 j.val (Nat.le_of_lt j.isLt) p).mp hp
    have := slice_sep j j' x hmem
    subst this
    exact absurd hj' (Nat.lt_irrefl _)

/-- After the scatter loop, read through any view over any earlier contents, the block's entry `y` is the stored
    value of the trip whose slice holds `y`, of what the block held in that slice when the loop started. -/
theorem scatter_read (𝒱 : Variants) (c : Dev nD) (bd : Option 𝒱.V) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole)
    (v9 : Vec F S1x1x1024 .i32) (v12 : Vec F S1024x128 .f32) (G5 : BufTy.Contents (Elt F) arg5.view.ty)
    {sig' : RefSig} {κ' : Kind} {sp' : Space} (v' : View sig' κ' sp' S1x10240x128 .f32) (f' : v'.ty.Contents (Elt F))
    (y : S1x10240x128.Idx) :
    v'.read (Elt F) (v'.writes (Elt F) f' (pb_k0_t2 (F := F) 𝒱 c bd i arg2 harg2 arg3 harg3 arg4 harg4 arg5 harg5 arg6 harg6 v9 v12 G5 k0_t2_loop.trips)) y
      = k0_pay4 v9 v12 (sliceOf y) (oslice (arg5.view.read (Elt F) G5) (sliceOf y)) (localOf y) := by
  have hy : (Rect.unit (s := S1x10240x128) (k0_off2 (sliceOf y)) S1x2048x128.size (k0_off2_inb (sliceOf y))).emb (localOf y) = y := by
    funext a; apply Fin.ext
    rw [Rect.emb_apply]
    have e := k0_off2_eq (sliceOf y)
    match a with
    | ⟨0, _⟩ =>
      show (k0_off2 (sliceOf y)) 0 + 1 * 0 = (y 0).val
      rw [e]; have h0 : (y 0).val < 1 := (y 0).isLt; show 0 + 1 * 0 = (y 0).val; omega
    | ⟨1, _⟩ =>
      show (k0_off2 (sliceOf y)) 1 + 1 * ((y 1).val % 2048) = (y 1).val
      rw [e]; show 2048 * ((y 1).val / 2048) + 1 * ((y 1).val % 2048) = (y 1).val; omega
    | ⟨2, _⟩ =>
      show (k0_off2 (sliceOf y)) 2 + 1 * (y 2).val = (y 2).val
      rw [e]; show 0 + 1 * (y 2).val = (y 2).val; omega
  have hu := View.read_writes_of_unique v' f' (piece2 𝒱 c bd i arg2 harg2 arg3 harg3 arg4 harg4 arg5 harg5 arg6 harg6 v9 v12 G5 (sliceOf y)) (localOf y)
    (pb_k0_t2 (F := F) 𝒱 c bd i arg2 harg2 arg3 harg3 arg4 harg4 arg5 harg5 arg6 harg6 v9 v12 G5 k0_t2_loop.trips)
    ((mem_pb2 𝒱 c bd i arg2 harg2 arg3 harg3 arg4 harg4 arg5 harg5 arg6 harg6 v9 v12 G5 _ le_rfl _).mpr ⟨sliceOf y, (sliceOf y).isLt, rfl⟩)
    (fun q hq hmem => by
      obtain ⟨j', -, rfl⟩ := (mem_pb2 𝒱 c bd i arg2 harg2 arg3 harg3 arg4 harg4 arg5 harg5 arg6 harg6 v9 v12 G5 _ le_rfl q).mp hq
      have := slice_sep (sliceOf y) j' (localOf y) hmem
      subst this; rfl)
  rw [hy] at hu
  rw [hu]
  show k0_pay4 v9 v12 (sliceOf y) _ (localOf y) = _
  rw [load2_eq]

/-! ## The two whole-body runs -/

/-- The destination words the body loads are the block's. -/
theorem v9_eq (arg4 : Memref sig .tc .vmem S1x1x1024 .i32) (harg4 : arg4.IsWhole) (x2 : Vec F S1x1x1024 .i32) :
    View.readAt (Elt F) arg4.view (Rect.unit (s := S1x1x1024) ![0, 0, 0] S1x1x1024.size inb_S1x1x1024_S1x1x1024_0_0_0).toLoadRect (harg4.unread x2) = x2 := by
  rw [View.readAt_eq_ld, harg4.read_unread]
  exact View.ld_unit_zero (S := S1x1x1024) hz3 _ _

/-- The source words the body loads are the block's. -/
theorem v7_eq (arg3 : Memref sig .tc .vmem S1x1024x1 .i32) (harg3 : arg3.IsWhole) (x1 : Vec F S1x1024x1 .i32) :
    View.readAt (Elt F) arg3.view (Rect.unit (s := S1x1024x1) ![0, 0, 0] S1x1024x1.size inb_S1x1024x1_S1x1024x1_0_0_0).toLoadRect (harg3.unread x1) = x1 := by
  rw [View.readAt_eq_ld, harg3.read_unread]
  exact View.ld_unit_zero (S := S1x1024x1) hz3 _ _

/-- The accumulator the body loads after the gather loop holds the gathered messages (later chunks). -/
theorem v12_B_eq (c : Dev nD) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole) (x0 : Vec F S10240x128 .bf16) (x1 : Vec F S1x1024x1 .i32) :
    kernelRun0_B.sl.v12 c i arg2 harg2 arg3 harg3 arg4 harg4 arg5 harg5 arg6 harg6 x0 x1 = msgOf x0 x1 := by
  unfold kernelRun0_B.sl.v12 kernelRun0_B.sl.HS0_1
  rw [v7_eq, View.writes_append, View.readAt_eq_ld, gather_eq Variants.none c none i arg2 harg2 arg3 harg3 arg4 harg4 arg5 harg5 arg6 harg6 x0 x1 _ k0_t1_loop.trips le_rfl]
  exact View.ld_unit_zero (S := S1024x128) hz2 _ _

/-- The same at a core's first chunk. -/
theorem v12_A_eq (c : Dev nD) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole) (x0 : Vec F S10240x128 .bf16) (x1 : Vec F S1x1024x1 .i32) :
    kernelRun0_A.sl.v12 c i arg2 harg2 arg3 harg3 arg4 harg4 arg5 harg5 arg6 harg6 x0 x1 = msgOf x0 x1 := by
  unfold kernelRun0_A.sl.v12 kernelRun0_A.sl.HS0_1
  rw [v7_eq, View.writes_append, View.readAt_eq_ld, gather_eq Variants.none c none i arg2 harg2 arg3 harg3 arg4 harg4 arg5 harg5 arg6 harg6 x0 x1 _ k0_t1_loop.trips le_rfl]
  exact View.ld_unit_zero (S := S1024x128) hz2 _ _

/-- At a core's first chunk the block is first filled with zero: the body's result is `bodyFn` from the zero fill. -/
theorem out0_A_3_eq (c : Dev nD) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole) (hc0 : cond0_0 i)
    (x0 : Vec F S10240x128 .bf16) (x1 : Vec F S1x1024x1 .i32) (x2 : Vec F S1x1x1024 .i32) :
    out0_A_3 c i arg2 harg2 arg3 harg3 arg4 harg4 arg5 harg5 arg6 harg6 hc0 x0 x1 x2 = bodyFn x0 x1 x2 k0_pay1 := by
  funext y
  unfold out0_A_3 kernelRun0_A
  dsimp only
  rw [show Scf.trips (0#32) (Scalar.addi 0#32 5#32) 1#32 = k0_t2_loop.trips from rfl, View.writes_append, scatter_read]
  unfold bodyFn
  rw [v12_A_eq, v9_eq]
  unfold kernelRun0_A.sl.H3_1
  rw [read_whole_cons arg5.view _ hz3]

/-- At a later chunk the block holds what the point before left: the body's result is `bodyFn` from that. -/
theorem out0_B_3_eq (c : Dev nD) (i : grid0.Coords) (arg2 : Memref sig .tc .vmem S10240x128 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x10240x128 .f32) (harg5 : arg5.IsWhole) (arg6 : Memref sig .tc .vmem S1024x128 .f32) (harg6 : arg6.IsWhole) (hc0 : ¬cond0_0 i)
    (x0 : Vec F S10240x128 .bf16) (x1 : Vec F S1x1024x1 .i32) (x2 : Vec F S1x1x1024 .i32) (xo3 : Vec F S1x10240x128 .f32) :
    out0_B_3 c i arg2 harg2 arg3 harg3 arg4 harg4 arg5 harg5 arg6 harg6 hc0 x0 x1 x2 xo3 = bodyFn x0 x1 x2 xo3 := by
  funext y
  unfold out0_B_3 kernelRun0_B
  dsimp only
  rw [show Scf.trips (0#32) (Scalar.addi 0#32 5#32) 1#32 = k0_t2_loop.trips from rfl, scatter_read]
  unfold bodyFn
  rw [harg5.read_unread, v12_B_eq, v9_eq]

end Cert.MsgPass.K

end
-- ==== Proof.Spec.lean ====
/-
  Message passing with sum aggregation, as mathematics.

  Inputs: a feature table `x : [10000, 128]` of extended reals and an edge list `ei : [2, 640000]` of 32-bit words,
  row 0 the source node of each edge, row 1 its destination.  The result at node `n`, feature `d` is

      G x ei (n, d) = ∑ over edges e, [dst e = n] · row (src e) d

  where `[w = n]` is 1 when the word `w` is the word of `n` and 0 otherwise, and `row w` is row `w` of the table
  when `w` names one of its 10000 rows and the zero row otherwise.

  The kernel reaches this sum in pieces.  It pads the edge list to 641024 = 2 · 313 · 1024 edges (a padding edge has
  source 0 and destination 10000, a node past the real ones) and the table to 10240 rows of which the last 240 are
  zero; core `c` takes the edges `c · 320512 + i · 1024 + r` in 313 chunks `i` of 1024 rows `r`, and one chunk adds
  to every padded node `n` the sum over its rows of `[dst = n] · (∑ over padded rows j, [src = j] · xpad j d)`.
  The two cores' partial sums are added and the first 10000 nodes kept.
-/
import Idealize.ShloMosaic.PureOps.Ideal
import Idealize.ShloMosaic.Lib.ValueIdx

noncomputable section

open scoped BigOperators

namespace Cert.MsgPass

open Idealize.ShloMosaic Idealize.ShloMosaic.ValueIdx

/-- The one-hot entry: 1 when the word `w` is the word of the number `n`, else 0. -/
def oh (w : BitVec 32) (n : ℕ) : EReal := if w = BitVec.ofNat 32 n then 1 else 0

/-- Row `w` of the table at feature `d` when `w` names a row, zero otherwise. -/
def rowOf (x : (⟨2, ![10000, 128]⟩ : Shape).Idx → EReal) (w : BitVec 32) (d : Fin 128) : EReal :=
  if h : w.toNat < 10000 then x (ix2 ⟨w.toNat, h⟩ d) else 0

/-- The aggregated messages: node `i 0`, feature `i 1`. -/
def G (x : (⟨2, ![10000, 128]⟩ : Shape).Idx → EReal) (ei : (⟨2, ![2, 640000]⟩ : Shape).Idx → BitVec 32) :
    (⟨2, ![10000, 128]⟩ : Shape).Idx → EReal := fun i =>
  ∑ e : Fin 640000, oh (ei (ix2 (1 : Fin 2) e)) (i 0).val * rowOf x (ei (ix2 (0 : Fin 2) e)) ⟨(i 1).val, idx2_lt1 i⟩

/-- Every source word, read as a signed number, names a row of the table. -/
def SrcInRange (ei : (⟨2, ![2, 640000]⟩ : Shape).Idx → BitVec 32) : Prop :=
  ∀ e : Fin 640000, 0 ≤ (ei (ix2 (0 : Fin 2) e)).toInt ∧ (ei (ix2 (0 : Fin 2) e)).toInt < 10000

/-- The padded source list: a padding edge reads row 0. -/
def spad (ei : (⟨2, ![2, 640000]⟩ : Shape).Idx → BitVec 32) (e : Fin 641024) : BitVec 32 :=
  if h : e.val < 640000 then ei (ix2 (0 : Fin 2) ⟨e.val, h⟩) else 0#32

/-- The padded destination list: a padding edge lands on node 10000, past the real nodes. -/
def dpad (ei : (⟨2, ![2, 640000]⟩ : Shape).Idx → BitVec 32) (e : Fin 641024) : BitVec 32 :=
  if h : e.val < 640000 then ei (ix2 (1 : Fin 2) ⟨e.val, h⟩) else 10000#32

/-- The padded table: 240 zero rows after the real ones. -/
def xpad (x : (⟨2, ![10000, 128]⟩ : Shape).Idx → EReal) : (⟨2, ![10240, 128]⟩ : Shape).Idx → EReal := fun j =>
  if h : (j 0).val < 10000 then x (ix2 ⟨(j 0).val, h⟩ ⟨(j 1).val, idx2_lt1 j⟩) else 0

/-- The edge that row `r` of chunk `i` of core `c` holds. -/
def edgeOf (c : Fin 2) (i : Fin 313) (r : Fin 1024) : Fin 641024 :=
  ⟨c.val * 320512 + i.val * 1024 + r.val, by have := c.isLt; have := i.isLt; have := r.isLt; omega⟩

/-- What one chunk adds at padded node `n`, feature `d`: its rows' one-hot destinations times the gathered rows,
    each gathered row itself a one-hot sum over the padded table. `xs` is the (padded) table, `s` and `t` the chunk's
    source and destination words by row. -/
def chunkSum (xs : (⟨2, ![10240, 128]⟩ : Shape).Idx → EReal) (s t : Fin 1024 → BitVec 32) (n : ℕ) (d : Fin 128) : EReal :=
  ∑ r : Fin 1024, oh (t r) n * ∑ j : Fin 10240, oh (s r) j.val * xs (ix2 j d)

/-- One grid point of the kernel on a core's block `prev : [1, 10240, 128]`: every entry gains its chunk sum. -/
def stepFn (xs : (⟨2, ![10240, 128]⟩ : Shape).Idx → EReal) (s : (⟨3, ![1, 1024, 1]⟩ : Shape).Idx → BitVec 32)
    (t : (⟨3, ![1, 1, 1024]⟩ : Shape).Idx → BitVec 32) (prev : (⟨3, ![1, 10240, 128]⟩ : Shape).Idx → EReal) :
    (⟨3, ![1, 10240, 128]⟩ : Shape).Idx → EReal := fun y =>
  prev y + chunkSum xs (fun r => s (ix3 (0 : Fin 1) r (0 : Fin 1))) (fun r => t (ix3 (0 : Fin 1) (0 : Fin 1) r)) (y 1).val
    ⟨(y 2).val, (y 2).isLt⟩

/-- Chunk `s` of core `c`: what it adds at padded node `n`, feature `d` (nothing past the 313 chunks). -/
def chunkAt (x : (⟨2, ![10000, 128]⟩ : Shape).Idx → EReal) (ei : (⟨2, ![2, 640000]⟩ : Shape).Idx → BitVec 32)
    (c : Fin 2) (s : ℕ) (n : ℕ) (d : Fin 128) : EReal :=
  if h : s < 313 then
    chunkSum (xpad x) (fun r => spad ei (edgeOf c ⟨s, h⟩ r)) (fun r => dpad ei (edgeOf c ⟨s, h⟩ r)) n d
  else 0

/-- What core `c` ends with at padded node `n`, feature `d`: from zero, its 313 chunk sums in order. -/
def coreOut (x : (⟨2, ![10000, 128]⟩ : Shape).Idx → EReal) (ei : (⟨2, ![2, 640000]⟩ : Shape).Idx → BitVec 32)
    (c : Fin 2) (n : ℕ) (d : Fin 128) : EReal :=
  0 + ∑ s ∈ Finset.range 313, chunkAt x ei c s n d

/-- The two cores' partial sums as one array `[2, 10240, 128]`. -/
def Gout (x : (⟨2, ![10000, 128]⟩ : Shape).Idx → EReal) (ei : (⟨2, ![2, 640000]⟩ : Shape).Idx → BitVec 32) :
    (⟨3, ![2, 10240, 128]⟩ : Shape).Idx → EReal := fun i =>
  coreOut x ei ⟨(i 0).val, (i 0).isLt⟩ (i 1).val ⟨(i 2).val, (i 2).isLt⟩

end Cert.MsgPass

end
-- ==== Proof.PayIdeal.lean ====
/-
  The body's four stored values, read at one entry over the extended reals.

  The two fills are zero.  A gather trip's stored accumulator at row `r`, feature `d` is the loaded accumulator
  there plus the one-hot row of the source word of row `r` against table rows `2048 k + q`, times those rows:
  the matrix product at the exact instance is the plain sum over the contracted axis onto a zero accumulator, the
  one-hot entry is the comparison bit widened and converted (0 or 1), and the changes of float format are the
  identity.  A scatter trip's stored slice at local node `q`, feature `d` is the loaded slice there plus the one-hot
  column of node `2048 k + q` against the destination words of the 1024 rows, times the gathered messages.

  The steps, in order.  The compared node word at lane `q` of trip `k` is the lane number plus `2048` times the
  trip's induction variable `0 + k * 1`, which as a 32-bit word is the word of the number `2048 k + q`
  (`node_word`: both sides have the same residue modulo `2 ^ 32`).  The comparison bit of two words, widened to 32
  bits and read as a signed integer, is 1 when the words are equal and 0 otherwise (`onehot_entry`).  The two
  broadcasts read the column (row) of words at the row (lane) coordinate alone, and the shape casts that drop or add a
  unit axis keep the row-major position.  The product's operand indices at output `(r, d)` and contraction position
  `q` are `(r, q)` and `(q, d)`, one coordinate lemma per operand axis, and the contraction index is its one
  coordinate, so the sum over it is the sum over `Fin 2048` (`Fin 1024` for the scatter).
-/
import proofs.«425535_j10651518894406_2_alg».proof.Proof.Gen.KernelIdeal.Skeleton
import proofs.«425535_j10651518894406_2_alg».proof.Proof.Spec
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

open scoped BigOperators

namespace Cert.MsgPass.K

open Idealize.ShloMosaic Idealize.ShloMosaic.TcCoe Idealize.ShloMosaic.ValueIdx Idealize.SL.Sem
open Cert.KernelIdeal Cert.KernelIdeal.Gen Cert.MsgPass

/-- The output block's fill is zero. -/
theorem pay1_apply (y : S1x10240x128.Idx) : k0_pay1 (F := Ideal) y = 0 := by
  show Ideal.ofBits .f32 0x00000000#32 = 0
  exact Ideal.ofBits_zero_f32

/-- The accumulator's fill is zero. -/
theorem pay2_apply (y : S1024x128.Idx) : k0_pay2 (F := Ideal) y = 0 := by
  show Ideal.ofBits .f32 0x00000000#32 = 0
  exact Ideal.ofBits_zero_f32

/-- The comparison bit of two words, widened and converted, is 1 when they are equal and 0 otherwise. -/
private theorem onehot_entry (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.mpr h]
    show (((1#1 : BitVec 1).setWidth 32).toInt : ℝ) = (1 : EReal)
    simp
  · rw [if_neg h]
    have h0 : IntOp.cmpi .eq a b = 0#1 := eq_zero_of_ne_one (fun h1 => h (StableHlo.Predicate.cmpi_eq_iff.mp h1))
    rw [h0]
    show (((0#1 : BitVec 1).setWidth 32).toInt : ℝ) = (0 : EReal)
    simp

/-- The node word of lane `q` in trip `k`: the lane number plus `2048` times the induction variable `0 + k * 1` is the
    word of the number `2048 k + q` (the two have the same residue modulo `2 ^ 32`). -/
private theorem node_word (k q : ℕ) :
    BitVec.ofNat 32 q + Scalar.muli (Scf.iv 0#32 1#32 k) 2048#32 = BitVec.ofNat 32 (2048 * k + q) := by
  show BitVec.ofNat 32 q + (0#32 + BitVec.ofNat 32 k * 1#32) * 2048#32 = _
  apply BitVec.eq_of_toNat_eq
  simp only [BitVec.toNat_add, BitVec.toNat_mul, BitVec.toNat_ofNat]
  omega

/-! ## The gather's product `[1024, 2048] × [2048, 128]`: the operand indices, axis by axis -/

/-- The left operand's row is the output's row. -/
private theorem lhs1_0 (j : S1024x128.Idx) (c : dot_S1024x2048_S2048x128_S1024x128_1_0_0_1_n_n.contr.Idx) :
    ((dot_S1024x2048_S2048x128_S1024x128_1_0_0_1_n_n.lhsIdx j c) 0).val = (j 0).val := by
  have key : ∀ (p q : Nat) (hp : p < 2) (hq : q < 2), p = q → (j ⟨p, hp⟩).val = (j ⟨q, hq⟩).val :=
    fun p q hp hq h => by subst h; rfl
  simp only [DotDims.lhsIdx, dot_S1024x2048_S2048x128_S1024x128_1_0_0_1_n_n, List.not_mem_nil, List.mem_singleton, dite_true, dite_false, ↓reduceDIte]
  exact key _ _ _ _ (by decide)

/-- The left operand's column is the contraction position. -/
private theorem lhs1_1 (j : S1024x128.Idx) (c : dot_S1024x2048_S2048x128_S1024x128_1_0_0_1_n_n.contr.Idx) :
    ((dot_S1024x2048_S2048x128_S1024x128_1_0_0_1_n_n.lhsIdx j c) 1).val = (c ⟨0, by decide⟩).val :=
  dot_S1024x2048_S2048x128_S1024x128_1_0_0_1_n_n.lhsIdx_val_of_single (cl := 1) rfl j c

/-- The right operand's row is the contraction position. -/
private theorem rhs1_0 (j : S1024x128.Idx) (c : dot_S1024x2048_S2048x128_S1024x128_1_0_0_1_n_n.contr.Idx) :
    ((dot_S1024x2048_S2048x128_S1024x128_1_0_0_1_n_n.rhsIdx j c) 0).val = (c ⟨0, by decide⟩).val :=
  dot_S1024x2048_S2048x128_S1024x128_1_0_0_1_n_n.rhsIdx_val_of_single (cr := 0) rfl j c

/-- The right operand's column is the output's column. -/
private theorem rhs1_1 (j : S1024x128.Idx) (c : dot_S1024x2048_S2048x128_S1024x128_1_0_0_1_n_n.contr.Idx) :
    ((dot_S1024x2048_S2048x128_S1024x128_1_0_0_1_n_n.rhsIdx j c) 1).val = (j 1).val := by
  have key : ∀ (p q : Nat) (hp : p < 2) (hq : q < 2), p = q → (j ⟨p, hp⟩).val = (j ⟨q, hq⟩).val :=
    fun p q hp hq h => by subst h; rfl
  simp only [DotDims.rhsIdx, dot_S1024x2048_S2048x128_S1024x128_1_0_0_1_n_n, List.not_mem_nil, List.mem_singleton, dite_true, dite_false, ↓reduceDIte]
  exact key _ _ _ _ (by decide)

/-- The dropped leading unit axis of the source words: row `r` of the column reads word `(0, r, 0)`. -/
private theorem src_word (v7 : Vec Ideal S1x1024x1 .i32) (r : Fin 1024) (z : Fin 1) :
    shapeCast S1024x1 v7 shapeCasts_S1x1024x1_S1024x1 (ix2 r z) = v7 (ix3 (0 : Fin 1) r (0 : Fin 1)) := by
  refine shapeCast_apply v7 _ (ix2 r z) (ix3 (0 : Fin 1) r (0 : Fin 1)) ?_
  rw [Shape.rowMajor_val_two, Shape.rowMajor_val_three]
  have := z.isLt
  simp

/-- The one-hot entry of a gather trip: row `r` against lane `q`. -/
private theorem gather_entry (v7 : Vec Ideal S1x1024x1 .i32) (k : ℕ) (r : Fin 1024) (q : Fin 2048) :
    (truncf FTy.bf16
          (sitofp (F := Ideal) FTy.f32
            (extui 32
              (cmpi CmpIPredicate.eq
                (broadcastTo S1024x2048 (shapeCast S1024x1 v7 shapeCasts_S1x1024x1_S1024x1)
                  broadcasts_S1024x1_S1024x2048)
                (broadcastTo S1024x2048
                  (addi (iota Kind.tc S1x2048 32 [1] iota_S1x2048_d1_w32)
                    (broadcast S1x2048 (Scalar.muli (Scf.iv 0#32 1#32 k) 2048#32)))
                  broadcasts_S1x2048_S1024x2048))
              natLt_1_32))
          bitsLt_bf16_f32) (ix2 r q) = oh (v7 (ix3 (0 : Fin 1) r (0 : Fin 1))) (2048 * k + q.val) := by
  rw [truncf_apply, sitofp_apply, extui_apply]
  show FloatOps.sitofp (F := Ideal) .f32 ((IntOp.cmpi .eq _ _).setWidth 32) = _
  rw [onehot_entry]
  rw [broadcastTo_apply _ broadcasts_S1024x1_S1024x2048 (ix2 r q) (ix2 r (0 : Fin 1))
      (by intro a; fin_cases a <;> simp),
    broadcastTo_apply _ broadcasts_S1x2048_S1024x2048 (ix2 r q) (ix2 (0 : Fin 1) q)
      (by intro a; fin_cases a <;> simp)]
  rw [src_word]
  show (if _ = IntOp.addi (iota Kind.tc S1x2048 32 [1] iota_S1x2048_d1_w32 (ix2 (0 : Fin 1) q)) (Scalar.muli (Scf.iv 0#32 1#32 k) 2048#32) then (1 : EReal) else 0) = _
  rw [iota_single_apply]
  show (if _ = BitVec.ofNat 32 q.val + (Scalar.muli (Scf.iv 0#32 1#32 k) 2048#32) then (1 : EReal) else 0) = _
  rw [node_word]
  rfl

/-- A gather trip's stored accumulator at row `r`, feature `d`. -/
theorem pay3_apply (v7 : Vec Ideal S1x1024x1 .i32) (k : Fin k0_t1_loop.trips) (v18 : Vec Ideal S2048x128 .bf16)
    (v29 : Vec Ideal S1024x128 .f32) (r : Fin 1024) (d : Fin 128) :
    k0_pay3 (F := Ideal) v7 k v18 v29 (ix2 r d)
      = v29 (ix2 r d) + ∑ q : Fin 2048, oh (v7 (ix3 (0 : Fin 1) r (0 : Fin 1))) (2048 * k.val + q.val) * v18 (ix2 q d) := by
  unfold k0_pay3
  simp only [shapeCast_self]
  rw [addf_apply]
  congr 1
  simp only [matmul]
  rw [Ideal.matmul_constant_zero_apply,
    ← Equiv.sum_comp (contrEquiv1 dot_S1024x2048_S2048x128_S1024x128_1_0_0_1_n_n 2048 rfl rfl).symm]
  refine Finset.sum_congr rfl fun q _ => ?_
  have hl : dot_S1024x2048_S2048x128_S1024x128_1_0_0_1_n_n.lhsIdx (ix2 r d)
      ((contrEquiv1 dot_S1024x2048_S2048x128_S1024x128_1_0_0_1_n_n 2048 rfl rfl).symm q) = ix2 r q :=
    Shape.idx_ext₂ (lhs1_0 _ _) ((lhs1_1 _ _).trans (contrEquiv1_symm_val _ 2048 rfl rfl q))
  have hr : dot_S1024x2048_S2048x128_S1024x128_1_0_0_1_n_n.rhsIdx (ix2 r d)
      ((contrEquiv1 dot_S1024x2048_S2048x128_S1024x128_1_0_0_1_n_n 2048 rfl rfl).symm q) = ix2 q d :=
    Shape.idx_ext₂ ((rhs1_0 _ _).trans (contrEquiv1_symm_val _ 2048 rfl rfl q)) (rhs1_1 _ _)
  rw [hl, hr, gather_entry]

/-! ## The scatter's product `[2048, 1024] × [1024, 128]`: the operand indices, axis by axis -/

/-- The left operand's row is the output's row. -/
private theorem lhs2_0 (j : S2048x128.Idx) (c : dot_S2048x1024_S1024x128_S2048x128_1_0_0_1_n_n.contr.Idx) :
    ((dot_S2048x1024_S1024x128_S2048x128_1_0_0_1_n_n.lhsIdx j c) 0).val = (j 0).val := by
  have key : ∀ (p q : Nat) (hp : p < 2) (hq : q < 2), p = q → (j ⟨p, hp⟩).val = (j ⟨q, hq⟩).val :=
    fun p q hp hq h => by subst h; rfl
  simp only [DotDims.lhsIdx, dot_S2048x1024_S1024x128_S2048x128_1_0_0_1_n_n, List.not_mem_nil, List.mem_singleton, dite_true, dite_false, ↓reduceDIte]
  exact key _ _ _ _ (by decide)

/-- The left operand's column is the contraction position. -/
private theorem lhs2_1 (j : S2048x128.Idx) (c : dot_S2048x1024_S1024x128_S2048x128_1_0_0_1_n_n.contr.Idx) :
    ((dot_S2048x1024_S1024x128_S2048x128_1_0_0_1_n_n.lhsIdx j c) 1).val = (c ⟨0, by decide⟩).val :=
  dot_S2048x1024_S1024x128_S2048x128_1_0_0_1_n_n.lhsIdx_val_of_single (cl := 1) rfl j c

/-- The right operand's row is the contraction position. -/
private theorem rhs2_0 (j : S2048x128.Idx) (c : dot_S2048x1024_S1024x128_S2048x128_1_0_0_1_n_n.contr.Idx) :
    ((dot_S2048x1024_S1024x128_S2048x128_1_0_0_1_n_n.rhsIdx j c) 0).val = (c ⟨0, by decide⟩).val :=
  dot_S2048x1024_S1024x128_S2048x128_1_0_0_1_n_n.rhsIdx_val_of_single (cr := 0) rfl j c

/-- The right operand's column is the output's column. -/
private theorem rhs2_1 (j : S2048x128.Idx) (c : dot_S2048x1024_S1024x128_S2048x128_1_0_0_1_n_n.contr.Idx) :
    ((dot_S2048x1024_S1024x128_S2048x128_1_0_0_1_n_n.rhsIdx j c) 1).val = (j 1).val := by
  have key : ∀ (p q : Nat) (hp : p < 2) (hq : q < 2), p = q → (j ⟨p, hp⟩).val = (j ⟨q, hq⟩).val :=
    fun p q hp hq h => by subst h; rfl
  simp only [DotDims.rhsIdx, dot_S2048x1024_S1024x128_S2048x128_1_0_0_1_n_n, List.not_mem_nil, List.mem_singleton, dite_true, dite_false, ↓reduceDIte]
  exact key _ _ _ _ (by decide)

/-- The dropped unit axis of the destination words: column `r` of the row reads word `(0, 0, r)`. -/
private theorem dst_word (v9 : Vec Ideal S1x1x1024 .i32) (z : Fin 1) (r : Fin 1024) :
    shapeCast S1x1024 v9 shapeCasts_S1x1x1024_S1x1024 (ix2 z r) = v9 (ix3 (0 : Fin 1) (0 : Fin 1) r) := by
  refine shapeCast_apply v9 _ (ix2 z r) (ix3 (0 : Fin 1) (0 : Fin 1) r) ?_
  rw [Shape.rowMajor_val_two, Shape.rowMajor_val_three]
  have := z.isLt
  simp

/-- The one-hot entry of a scatter trip: local node `q` against row `r`. -/
private theorem scatter_entry (v9 : Vec Ideal S1x1x1024 .i32) (k : ℕ) (q : Fin 2048) (r : Fin 1024) :
    (truncf FTy.bf16
          (sitofp (F := Ideal) FTy.f32
            (extui 32
              (cmpi CmpIPredicate.eq
                (broadcastTo S2048x1024
                  (addi (iota Kind.tc S2048x1 32 [0] iota_S2048x1_d0_w32)
                    (broadcast S2048x1 (Scalar.muli (Scf.iv 0#32 1#32 k) 2048#32)))
                  broadcasts_S2048x1_S2048x1024)
                (broadcastTo S2048x1024 (shapeCast S1x1024 v9 shapeCasts_S1x1x1024_S1x1024)
                  broadcasts_S1x1024_S2048x1024))
              natLt_1_32))
          bitsLt_bf16_f32) (ix2 q r) = oh (v9 (ix3 (0 : Fin 1) (0 : Fin 1) r)) (2048 * k + q.val) := by
  rw [truncf_apply, sitofp_apply, extui_apply]
  show FloatOps.sitofp (F := Ideal) .f32 ((IntOp.cmpi .eq _ _).setWidth 32) = _
  rw [onehot_entry]
  rw [broadcastTo_apply _ broadcasts_S2048x1_S2048x1024 (ix2 q r) (ix2 q (0 : Fin 1))
      (by intro a; fin_cases a <;> simp),
    broadcastTo_apply _ broadcasts_S1x1024_S2048x1024 (ix2 q r) (ix2 (0 : Fin 1) r)
      (by intro a; fin_cases a <;> simp)]
  rw [dst_word]
  show (if IntOp.addi (iota Kind.tc S2048x1 32 [0] iota_S2048x1_d0_w32 (ix2 q (0 : Fin 1))) (Scalar.muli (Scf.iv 0#32 1#32 k) 2048#32) = _ then (1 : EReal) else 0) = _
  rw [iota_single_apply]
  show (if BitVec.ofNat 32 q.val + (Scalar.muli (Scf.iv 0#32 1#32 k) 2048#32) = _ then (1 : EReal) else 0) = _
  rw [node_word]
  exact if_congr eq_comm rfl rfl

/-- A scatter trip's stored slice at local node `q`, feature `d`. -/
theorem pay4_apply (v9 : Vec Ideal S1x1x1024 .i32) (v12 : Vec Ideal S1024x128 .f32) (k : Fin k0_t2_loop.trips)
    (v28 : Vec Ideal S1x2048x128 .f32) (q : Fin 2048) (d : Fin 128) :
    k0_pay4 (F := Ideal) v9 v12 k v28 (ix3 (0 : Fin 1) q d)
      = v28 (ix3 (0 : Fin 1) q d) + ∑ r : Fin 1024, oh (v9 (ix3 (0 : Fin 1) (0 : Fin 1) r)) (2048 * k.val + q.val) * v12 (ix2 r d) := by
  unfold k0_pay4
  rw [shapeCast_apply _ shapeCasts_S2048x128_S1x2048x128 (ix3 (0 : Fin 1) q d) (ix2 q d)
      (by rw [Shape.rowMajor_val_two, Shape.rowMajor_val_three]; simp),
    addf_apply,
    shapeCast_apply v28 shapeCasts_S1x2048x128_S2048x128 (ix2 q d) (ix3 (0 : Fin 1) q d)
      (by rw [Shape.rowMajor_val_two, Shape.rowMajor_val_three]; simp)]
  congr 1
  simp only [matmul]
  rw [Ideal.matmul_constant_zero_apply,
    ← Equiv.sum_comp (contrEquiv1 dot_S2048x1024_S1024x128_S2048x128_1_0_0_1_n_n 1024 rfl rfl).symm]
  refine Finset.sum_congr rfl fun r _ => ?_
  have hl : dot_S2048x1024_S1024x128_S2048x128_1_0_0_1_n_n.lhsIdx (ix2 q d)
      ((contrEquiv1 dot_S2048x1024_S1024x128_S2048x128_1_0_0_1_n_n 1024 rfl rfl).symm r) = ix2 q r :=
    Shape.idx_ext₂ (lhs2_0 _ _) ((lhs2_1 _ _).trans (contrEquiv1_symm_val _ 1024 rfl rfl r))
  have hr : dot_S2048x1024_S1024x128_S2048x128_1_0_0_1_n_n.rhsIdx (ix2 q d)
      ((contrEquiv1 dot_S2048x1024_S1024x128_S2048x128_1_0_0_1_n_n 1024 rfl rfl).symm r) = ix2 r d :=
    Shape.idx_ext₂ ((rhs2_0 _ _).trans (contrEquiv1_symm_val _ 1024 rfl rfl r)) (rhs2_1 _ _)
  rw [hl, hr, scatter_entry, truncf_apply]

end Cert.MsgPass.K

end
-- ==== Proof.BodyIdeal.lean ====
/-
  One grid point over the extended reals: every entry of the block gains its chunk sum.

  Five gather trips from a zero accumulator add up, at row `r`, feature `d`, the one-hot sums over table rows
  `2048 k + q` for `k < 5`, `q < 2048`: together one sum over the 10240 padded rows (`0 + a = a` and the sum's
  associativity).  The scatter trip for padded node `n = 2048 k + q` adds, to what the block held at `n`, the one-hot
  column of `n` against the chunk's destination words times those messages.  That is `stepFn`.

  The accumulator after `k` trips is kept as a sum over the row numbers below `2048 k` of a term that is zero past the
  table; a trip appends the next 2048 numbers (`Finset.sum_range_add`), and at `k = 5` the range is the whole table.
  A slice's entry at local row `q` is the block's entry at row `2048 k + q`: a unit-stride rectangle places
  coordinate `q` at `off + 1 * q`.
-/
import proofs.«425535_j10651518894406_2_alg».proof.Proof.BodyFn
import proofs.«425535_j10651518894406_2_alg».proof.Proof.PayIdeal

set_option maxRecDepth 16384

noncomputable section

open scoped BigOperators

namespace Cert.MsgPass.K

open Idealize.ShloMosaic Idealize.ShloMosaic.TcCoe Idealize.ShloMosaic.ValueIdx Idealize.SL.Sem
open Cert.KernelIdeal Cert.KernelIdeal.Gen Cert.MsgPass

/-- A row of a gather slice is a row of the table. -/
private theorem xslice_apply (x0 : Vec Ideal S10240x128 .bf16) (k : Fin k0_t1_loop.trips) (q : Fin 2048) (d : Fin 128)
    (h : 2048 * k.val + q.val < 10240) :
    xslice x0 k (ix2 q d) = x0 (ix2 ⟨2048 * k.val + q.val, h⟩ d) := by
  show x0 _ = x0 _
  congr 1
  funext a
  apply Fin.ext
  rw [LoadRect.idx_apply]
  have e0 : k0_off1 k 0 = 2048 * k.val := congrFun (k0_off1_eq k) 0
  have e1 : k0_off1 k 1 = 0 := congrFun (k0_off1_eq k) 1
  match a with
  | ⟨0, _⟩ => show k0_off1 k 0 + 1 * q.val = 2048 * k.val + q.val; omega
  | ⟨1, _⟩ => show k0_off1 k 1 + 1 * d.val = d.val; omega

/-- A row of a scatter slice is a row of the block. -/
private theorem oslice_apply (prev : Vec Ideal S1x10240x128 .f32) (k : Fin k0_t2_loop.trips) (q : Fin 2048) (d : Fin 128)
    (h : 2048 * k.val + q.val < 10240) :
    oslice prev k (ix3 (0 : Fin 1) q d) = prev (ix3 (0 : Fin 1) ⟨2048 * k.val + q.val, h⟩ d) := by
  show prev _ = prev _
  congr 1
  funext a
  apply Fin.ext
  rw [LoadRect.idx_apply]
  have e0 : k0_off2 k 0 = 0 := congrFun (k0_off2_eq k) 0
  have e1 : k0_off2 k 1 = 2048 * k.val := congrFun (k0_off2_eq k) 1
  have e2 : k0_off2 k 2 = 0 := congrFun (k0_off2_eq k) 2
  match a with
  | ⟨0, _⟩ => show k0_off2 k 0 + 1 * 0 = 0; omega
  | ⟨1, _⟩ => show k0_off2 k 1 + 1 * q.val = 2048 * k.val + q.val; omega
  | ⟨2, _⟩ => show k0_off2 k 2 + 1 * d.val = d.val; omega

/-- Column `d` of the table weighted by the one-hot row of the word `w`, as a function of the row number
    (zero past the table's 10240 rows). -/
private def term (x0 : Vec Ideal S10240x128 .bf16) (w : BitVec 32) (d : Fin 128) (n : ℕ) : EReal :=
  if h : n < 10240 then oh w n * x0 (ix2 ⟨n, h⟩ d) else 0

/-- After `k` gather trips the accumulator at row `r`, feature `d` holds the one-hot sum over the first
    `2048 k` rows of the table: the zero fill for `k = 0`, and a trip adds the next 2048 rows. -/
private theorem scratchAfter_apply (x0 : Vec Ideal S10240x128 .bf16) (x1 : Vec Ideal S1x1024x1 .i32) (r : Fin 1024)
    (d : Fin 128) : ∀ (k : ℕ) (h : k ≤ k0_t1_loop.trips),
    scratchAfter (F := Ideal) x0 x1 k h (ix2 r d)
      = ∑ n ∈ Finset.range (2048 * k), term x0 (x1 (ix3 (0 : Fin 1) r (0 : Fin 1))) d n
  | 0, _ => by
      show k0_pay2 (F := Ideal) (ix2 r d) = _
      rw [pay2_apply, Nat.mul_zero, Finset.range_zero, Finset.sum_empty]
  | k + 1, h => by
      show k0_pay3 (F := Ideal) x1 ⟨k, h⟩ (xslice x0 ⟨k, h⟩) (scratchAfter x0 x1 k (Nat.le_of_succ_le h)) (ix2 r d) = _
      rw [pay3_apply, scratchAfter_apply x0 x1 r d k (Nat.le_of_succ_le h), Nat.mul_succ, Finset.sum_range_add]
      congr 1
      rw [Finset.sum_range]
      refine Finset.sum_congr rfl fun q _ => ?_
      have hk : k < 5 := by have h' := h; rw [trips1] at h'; omega
      have hq : 2048 * k + q.val < 10240 := by have := q.isLt; omega
      rw [xslice_apply x0 ⟨k, h⟩ q d hq]
      unfold term; rw [dif_pos hq]

/-- The gathered messages at row `r`, feature `d`: the one-hot row of the source word against the whole padded table. -/
theorem msgOf_apply (x0 : Vec Ideal S10240x128 .bf16) (x1 : Vec Ideal S1x1024x1 .i32) (r : Fin 1024) (d : Fin 128) :
    msgOf (F := Ideal) x0 x1 (ix2 r d) = ∑ j : Fin 10240, oh (x1 (ix3 (0 : Fin 1) r (0 : Fin 1))) j.val * x0 (ix2 j d) := by
  show scratchAfter (F := Ideal) x0 x1 k0_t1_loop.trips le_rfl (ix2 r d) = _
  rw [scratchAfter_apply]
  have e : 2048 * k0_t1_loop.trips = 10240 := by rw [trips1]
  rw [e, Finset.sum_range]
  refine Finset.sum_congr rfl fun j _ => ?_
  unfold term; rw [dif_pos j.isLt]

/-- One grid point is `stepFn`. -/
theorem bodyFn_ideal (x0 : Vec Ideal S10240x128 .bf16) (x1 : Vec Ideal S1x1024x1 .i32) (x2 : Vec Ideal S1x1x1024 .i32)
    (prev : Vec Ideal S1x10240x128 .f32) :
    bodyFn (F := Ideal) x0 x1 x2 prev = stepFn x0 x1 x2 prev := by
  funext y
  have hy1 : (y 1).val < 10240 := (y 1).isLt
  have hdm : 2048 * ((y 1).val / 2048) + (y 1).val % 2048 = (y 1).val := Nat.div_add_mod _ _
  show k0_pay4 (F := Ideal) x2 (msgOf x0 x1) (sliceOf y) (oslice prev (sliceOf y))
      (ix3 (0 : Fin 1) (⟨(y 1).val % 2048, Nat.mod_lt _ (by decide)⟩ : Fin 2048) (⟨(y 2).val, (y 2).isLt⟩ : Fin 128))
    = prev y + ∑ r : Fin 1024, oh (x2 (ix3 (0 : Fin 1) (0 : Fin 1) r)) (y 1).val
        * ∑ j : Fin 10240, oh (x1 (ix3 (0 : Fin 1) r (0 : Fin 1))) j.val * x0 (ix2 j ⟨(y 2).val, (y 2).isLt⟩)
  rw [pay4_apply, oslice_apply prev (sliceOf y) _ _ (by show 2048 * ((y 1).val / 2048) + (y 1).val % 2048 < 10240; omega)]
  congr 1
  · congr 1
    funext a
    apply Fin.ext
    match a with
    | ⟨0, _⟩ => show (0 : ℕ) = (y 0).val; have h0 : (y 0).val < 1 := (y 0).isLt; omega
    | ⟨1, _⟩ => exact hdm
    | ⟨2, _⟩ => rfl
  · refine Finset.sum_congr rfl fun r _ => ?_
    rw [msgOf_apply]
    show oh _ (2048 * ((y 1).val / 2048) + (y 1).val % 2048) * _ = oh _ (y 1).val * _
    rw [hdm]

end Cert.MsgPass.K

end
-- ==== Proof.HostIn.lean ====
/-
  What the kernel's three input arrays hold when the region starts, in terms of the program's two arguments.

  The table operand is the argument table with its format changed (the identity on extended reals) and padded with
  240 rows of the converted integer 0, which is the real 0.  The source operand is row 0 of the edge list, padded
  with 1024 words 0 and laid out `[2, 320512, 1]`: entry `(c, q, 0)` is padded edge `c · 320512 + q`.  The
  destination operand is row 1, padded with 1024 words 10000 and laid out `[2, 1, 320512]`.

  Each operand is first written as the composed term of the operations that produce it, then read at an index one
  operation at a time: a reshape keeps the row-major position (`(c, q, 0)` of `[2, 320512, 1]` and `(c, q)` of
  `[2, 320512]` both sit at position `c · 320512 + q`); a unit middle axis added by a broadcast is dropped; a pad with
  no low and no interior padding reads the operand below the operand's extent and the padding scalar from there on;
  the slice of row `r` reshaped to a list reads entry `(r, e)`.  The signed value of the word 0 is 0, so the
  converted padding scalar of the table is the real 0.
-/
import proofs.«425535_j10651518894406_2_alg».proof.Proof.Gen.KernelIdeal.Frame
import proofs.«425535_j10651518894406_2_alg».proof.Proof.Spec
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

open scoped BigOperators

namespace Cert.MsgPass.K

open Idealize.ShloMosaic Idealize.ShloMosaic.TcCoe Idealize.ShloMosaic.ValueIdx Idealize.SL.Sem
open Cert.KernelIdeal Cert.KernelIdeal.Gen Cert.MsgPass
open Idealize.ShloMosaic.Pipeline (Dat)

variable (m : (ℓ : Loc nD τ sig) → Buf (Elt Ideal) ℓ)

/-! ## The layout operations read at an index -/

/-- Entry `e` of the reshaped slice of row 0 is entry `(0, e)` of the edge list. -/
private theorem row0_read (x1 : IVec S2x640000 32) (e : Fin 640000) :
    shapeCast S640000 (extractStridedSlice S1x640000 ![0, 0] x1 slices_S2x640000_S1x640000_0_0)
      shapeCasts_S1x640000_S640000 (ix1 e) = x1 (ix2 (0 : Fin 2) e) := by
  rw [shapeCast_apply _ shapeCasts_S1x640000_S640000 (ix1 e) (ix2 (0 : Fin 1) e)
    (by rewrite [Shape.rowMajor_val_two, Shape.rowMajor_val_one]; show 0 * 640000 + e.val = e.val; omega)]
  exact extractStridedSlice_apply ![0, 0] x1 slices_S2x640000_S1x640000_0_0 (ix2 (0 : Fin 1) e) (ix2 (0 : Fin 2) e)
    (fun a => match a with
      | ⟨0, _⟩ => by show (0 : Nat) = 0 + 0; omega
      | ⟨1, _⟩ => by show e.val = 0 + e.val; omega)

/-- Entry `e` of the reshaped slice of row 1 is entry `(1, e)` of the edge list. -/
private theorem row1_read (x1 : IVec S2x640000 32) (e : Fin 640000) :
    shapeCast S640000 (extractStridedSlice S1x640000 ![1, 0] x1 slices_S2x640000_S1x640000_1_0)
      shapeCasts_S1x640000_S640000 (ix1 e) = x1 (ix2 (1 : Fin 2) e) := by
  rw [shapeCast_apply _ shapeCasts_S1x640000_S640000 (ix1 e) (ix2 (0 : Fin 1) e)
    (by rewrite [Shape.rowMajor_val_two, Shape.rowMajor_val_one]; show 0 * 640000 + e.val = e.val; omega)]
  exact extractStridedSlice_apply ![1, 0] x1 slices_S2x640000_S1x640000_1_0 (ix2 (0 : Fin 1) e) (ix2 (1 : Fin 2) e)
    (fun a => match a with
      | ⟨0, _⟩ => by show (1 : Nat) = 1 + 0; omega
      | ⟨1, _⟩ => by show e.val = 0 + e.val; omega)

/-- A list of 640000 words padded with 1024 copies of a scalar: entry `e` is the list's below 640000, the scalar from there on. -/
private theorem pad1_read (y : IVec S640000 32) (v : IVec S_ 32) (e : Fin 641024) :
    pad S641024 ![0] ![1024] ![0] y v pads_S640000_S641024_010240 h_S_ (ix1 e)
      = if h : e.val < 640000 then y (ix1 ⟨e.val, h⟩) else v ix0 := by
  by_cases h : e.val < 640000
  · rw [dif_pos h]
    exact pad_apply_of_inside _ _ _ y v pads_S640000_S641024_010240 h_S_ (ix1 e) (ix1 ⟨e.val, h⟩)
      (fun a => match a with
        | ⟨0, _⟩ => by show e.val = 0 + e.val * (0 + 1); omega)
  · rw [dif_neg h, pad_apply_of_not_inside _ _ _ y v pads_S640000_S641024_010240 h_S_ (ix1 e) (0 : Fin 1)
      (by show ¬(0 ≤ e.val ∧ (e.val - 0) % (0 + 1) = 0 ∧ (e.val - 0) / (0 + 1) < 640000); omega)]
    exact congrArg v (eq_ix0 _)

/-- The `[2, 320512, 1]` layout of a list of 641024: entry `(cc, q, 0)` is entry `cc · 320512 + q`. -/
private theorem cast3_read (z : IVec S641024 32) (cc : Fin 2) (q : Fin 320512) :
    shapeCast S2x320512x1 z shapeCasts_S641024_S2x320512x1 (ix3 cc q (0 : Fin 1))
      = z (ix1 ⟨cc.val * 320512 + q.val, by have := cc.isLt; have := q.isLt; omega⟩) :=
  shapeCast_apply z shapeCasts_S641024_S2x320512x1 _ _
    (by rewrite [Shape.rowMajor_val_three, Shape.rowMajor_val_one]
        show cc.val * 320512 + q.val = (cc.val * 320512 + q.val) * 1 + 0; omega)

/-- The `[2, 320512]` layout of a list of 641024: entry `(cc, q)` is entry `cc · 320512 + q`. -/
private theorem cast2_read (z : IVec S641024 32) (cc : Fin 2) (q : Fin 320512) :
    shapeCast S2x320512 z shapeCasts_S641024_S2x320512 (ix2 cc q)
      = z (ix1 ⟨cc.val * 320512 + q.val, by have := cc.isLt; have := q.isLt; omega⟩) :=
  shapeCast_apply z shapeCasts_S641024_S2x320512 _ _
    (by rewrite [Shape.rowMajor_val_two, Shape.rowMajor_val_one]
        show cc.val * 320512 + q.val = cc.val * 320512 + q.val; rfl)

/-- A `[2, 320512]` array given a unit middle axis: entry `(cc, 0, q)` is entry `(cc, q)`. -/
private theorem bcast_read (w : IVec S2x320512 32) (cc : Fin 2) (q : Fin 320512) :
    broadcastInDim S2x1x320512 ![0, 2] bcast_S2x320512_S2x1x320512_0_2 w (ix3 cc (0 : Fin 1) q) = w (ix2 cc q) :=
  broadcastInDim_apply _ bcast_S2x320512_S2x1x320512_0_2 w _ _ (fun a => match a with
    | ⟨0, _⟩ => by show cc.val = if (2 : Nat) = 1 then 0 else cc.val; rw [if_neg (by decide)]
    | ⟨1, _⟩ => by show q.val = if (320512 : Nat) = 1 then 0 else q.val; rw [if_neg (by decide)])

/-- The table with its format changed and padded with 240 rows of the converted integer 0 is the padded table. -/
private theorem xpad_read (x : FVec Ideal S10000x128 .f32) (j : S10240x128.Idx) :
    pad S10240x128 ![0, 0] ![240, 0] ![0, 0] (truncf .bf16 x bitsLt_bf16_f32 : FVec Ideal S10000x128 .bf16)
      (sitofp .bf16 (constantI S_ 32 0#32) : FVec Ideal S_ .bf16) pads_S10000x128_S10240x128_02400_000 h_S_ j = xpad x j := by
  unfold xpad
  by_cases h : (j 0).val < 10000
  · rw [dif_pos h]
    exact pad_apply_of_inside _ _ _ _ _ pads_S10000x128_S10240x128_02400_000 h_S_ j (ix2 ⟨(j 0).val, h⟩ ⟨(j 1).val, idx2_lt1 j⟩)
      (fun a => match a with
        | ⟨0, _⟩ => by show (j 0).val = 0 + (j 0).val * (0 + 1); omega
        | ⟨1, _⟩ => by show (j 1).val = 0 + (j 1).val * (0 + 1); omega)
  · rw [dif_neg h, pad_apply_of_not_inside _ _ _ _ _ pads_S10000x128_S10240x128_02400_000 h_S_ j (0 : Fin 2)
      (by show ¬(0 ≤ (j 0).val ∧ ((j 0).val - 0) % (0 + 1) = 0 ∧ ((j 0).val - 0) / (0 + 1) < 10000); omega)]
    show (((0#32 : BitVec 32).toInt : ℝ) : EReal) = 0
    rw [BitVec.toInt_zero, Int.cast_zero, EReal.coe_zero]

/-! ## The three operands -/

/-- The table operand is the padded table. -/
theorem V_v10 (c : Dev nD) :
    (V (F := Ideal) m c main_v10 : S10240x128.Idx → EReal) = xpad (m ((c : Thread nD τ).loc main_arg0)) := by
  have e : (V (F := Ideal) m c main_v10 : S10240x128.Idx → EReal)
      = pad S10240x128 ![0, 0] ![240, 0] ![0, 0]
          (truncf .bf16 (m ((c : Thread nD τ).loc main_arg0) : FVec Ideal S10000x128 .f32) bitsLt_bf16_f32 : FVec Ideal S10000x128 .bf16)
          (sitofp .bf16 (constantI S_ 32 0#32) : FVec Ideal S_ .bf16) pads_S10000x128_S10240x128_02400_000 h_S_ := by
    dsimp only [V, V0]
    simp only [hostOps0, hostOps0_1, hostOps0_2, hostOps0_3, hostOps0_4, hostOps0_5, List.flatten_cons, List.flatten_nil, List.append_nil, List.cons_append, List.nil_append]
    after_results
    rfl
  rw [e]
  exact funext fun j => xpad_read _ j

/-- The source operand at core `cc`, row `q` is padded source word `cc · 320512 + q`. -/
theorem V_v6 (c : Dev nD) (cc : Fin 2) (q : Fin 320512) :
    (V (F := Ideal) m c main_v6 : S2x320512x1.Idx → BitVec 32) (ix3 cc q (0 : Fin 1))
      = spad (m ((c : Thread nD τ).loc main_arg1)) ⟨cc.val * 320512 + q.val, by have := cc.isLt; have := q.isLt; omega⟩ := by
  have e : (V (F := Ideal) m c main_v6 : S2x320512x1.Idx → BitVec 32)
      = shapeCast S2x320512x1
          (pad S641024 ![0] ![1024] ![0]
            (shapeCast S640000 (extractStridedSlice S1x640000 ![0, 0] (m ((c : Thread nD τ).loc main_arg1) : IVec S2x640000 32) slices_S2x640000_S1x640000_0_0) shapeCasts_S1x640000_S640000)
            (constantI S_ 32 0#32) pads_S640000_S641024_010240 h_S_)
          shapeCasts_S641024_S2x320512x1 := by
    dsimp only [V, V0]
    simp only [hostOps0, hostOps0_1, hostOps0_2, hostOps0_3, hostOps0_4, hostOps0_5, List.flatten_cons, List.flatten_nil, List.append_nil, List.cons_append, List.nil_append]
    after_results
    rfl
  rw [e, cast3_read, pad1_read]
  unfold spad
  by_cases h : cc.val * 320512 + q.val < 640000
  · rw [dif_pos h, dif_pos h, row0_read]
  · rw [dif_neg h, dif_neg h]; rfl

/-- The destination operand at core `cc`, row `q` is padded destination word `cc · 320512 + q`. -/
theorem V_v8 (c : Dev nD) (cc : Fin 2) (q : Fin 320512) :
    (V (F := Ideal) m c main_v8 : S2x1x320512.Idx → BitVec 32) (ix3 cc (0 : Fin 1) q)
      = dpad (m ((c : Thread nD τ).loc main_arg1)) ⟨cc.val * 320512 + q.val, by have := cc.isLt; have := q.isLt; omega⟩ := by
  have e : (V (F := Ideal) m c main_v8 : S2x1x320512.Idx → BitVec 32)
      = broadcastInDim S2x1x320512 ![0, 2] bcast_S2x320512_S2x1x320512_0_2
          (shapeCast S2x320512
            (pad S641024 ![0] ![1024] ![0]
              (shapeCast S640000 (extractStridedSlice S1x640000 ![1, 0] (m ((c : Thread nD τ).loc main_arg1) : IVec S2x640000 32) slices_S2x640000_S1x640000_1_0) shapeCasts_S1x640000_S640000)
              (constantI S_ 32 10000#32) pads_S640000_S641024_010240 h_S_)
            shapeCasts_S641024_S2x320512) := by
    dsimp only [V, V0]
    simp only [hostOps0, hostOps0_1, hostOps0_2, hostOps0_3, hostOps0_4, hostOps0_5, List.flatten_cons, List.flatten_nil, List.append_nil, List.cons_append, List.nil_append]
    after_results
    rfl
  rw [e, bcast_read, cast2_read, pad1_read]
  unfold dpad
  by_cases h : cc.val * 320512 + q.val < 640000
  · rw [dif_pos h, dif_pos h, row1_read]
  · rw [dif_neg h, dif_neg h]; rfl

end Cert.MsgPass.K

end
-- ==== Proof.Accum.lean ====
/-
  The kernel's output array after the run.

  Grid point `t = 313 · c + i` is chunk `i` of core `c`.  The output block of core `c` stays in its staging buffer
  over the core's 313 points and is written back once, after the last.  At chunk 0 the body starts from a zero
  block, at a later chunk from what the chunk before left; each point adds its chunk sum to every entry.  So after
  chunk `i` the block holds `0 + ∑ s ≤ i` of the chunk sums, and what core `c` writes back is `coreOut`.  The
  point's source and destination blocks are rows `1024 i …` of core `c`'s part of the padded edge lists, and its
  table block is the whole padded table.

  In steps.  The block indices of the four windows at point `t` are decided once over the 626 points: the table's
  is (0, 0), the source words' (t / 313, t % 313, 0), the destination words' (t / 313, 0, t % 313), the output's
  (t / 313, 0, 0).  A block's entry sits in its array at index × block size + the coordinate inside the block, so
  row `r` of the source block at point `313 c + s` is entry (c, 1024 s + r, 0) of the source operand, which is padded
  edge `c · 320512 + s · 1024 + r`; likewise the destination block.  The block's contents point by point reset at the
  multiples of 313 and step from the point before elsewhere, so at point `t` they are the fold over the run
  `313 (t / 313) … t`; each step adds the point's chunk sum to every entry, so the fold at an entry is zero plus the
  sum of the chunk sums of the run's points, and at `t % 313 = 312` that is `coreOut` of core `t / 313`.  The block of
  the output array written back at that point is the core's slab (t / 313, ·, ·), where `Gout` is the same
  `coreOut`; and every index (k, n, d) of the array lies in the slab written back at point `313 k + 312`.
-/
import proofs.«425535_j10651518894406_2_alg».proof.Proof.BodyIdeal
import proofs.«425535_j10651518894406_2_alg».proof.Proof.HostIn

set_option maxRecDepth 16384

noncomputable section

open scoped BigOperators

namespace Cert.MsgPass.K

open Idealize.ShloMosaic Idealize.ShloMosaic.TcCoe Idealize.ShloMosaic.ValueIdx Idealize.SL.Sem
open Cert.KernelIdeal Cert.KernelIdeal.Gen Cert.MsgPass
open Idealize.ShloMosaic.Pipeline (Dat)

variable (m : (ℓ : Loc nD τ sig) → Buf (Elt Ideal) ℓ)

/-- The table block at a point. -/
private abbrev xblk (c : Dev nD) (t : Fin cfg0.N) : Vec Ideal S10240x128 .bf16 := iblk m c 0 t
/-- The source-word block at a point. -/
private abbrev sblk (c : Dev nD) (t : Fin cfg0.N) : Vec Ideal S1x1024x1 .i32 := iblk m c 1 t
/-- The destination-word block at a point. -/
private abbrev dblk (c : Dev nD) (t : Fin cfg0.N) : Vec Ideal S1x1x1024 .i32 := iblk m c 2 t

/-- The block indices at point `t`: core `t / 313`, chunk `t % 313`. -/
private theorem index_facts : ∀ t : Fin cfg0.N, win0_0.index t (0 : Fin 2) = 0 ∧ win0_0.index t (1 : Fin 2) = 0
    ∧ win0_1.index t (0 : Fin 3) = t.val / 313 ∧ win0_1.index t (1 : Fin 3) = t.val % 313 ∧ win0_1.index t (2 : Fin 3) = 0
    ∧ win0_2.index t (0 : Fin 3) = t.val / 313 ∧ win0_2.index t (1 : Fin 3) = 0 ∧ win0_2.index t (2 : Fin 3) = t.val % 313
    ∧ win0_3.index t (0 : Fin 3) = t.val / 313 ∧ win0_3.index t (1 : Fin 3) = 0 ∧ win0_3.index t (2 : Fin 3) = 0 :=
  (by decide +kernel : ∀ t : Fin grid0.N, _)

/-- The table block is the whole table operand. -/
private theorem xblk_eq (c : Dev nD) (t : Fin cfg0.N) : xblk m c t = V m c main_v10 := by
  funext y
  show V m c main_v10 (((cfg0.win 0).blk t).view.emb y) = V m c main_v10 y
  obtain ⟨e0, e1, -⟩ := index_facts t
  refine congrArg (V m c main_v10) ?_
  funext a; apply Fin.ext
  match a with
  | ⟨0, _⟩ => show win0_0.index t (0 : Fin 2) * 10240 + 1 * (y 0).val = (y 0).val; omega
  | ⟨1, _⟩ => show win0_0.index t (1 : Fin 2) * 128 + 1 * (y 1).val = (y 1).val; omega

/-- The source words of a point's rows: core `cc`, chunk `s`, row `r` holds padded edge `edgeOf cc s r`. -/
private theorem sblk_apply (c : Dev nD) (t : Fin cfg0.N) (cc : Fin 2) (s : Fin 313) (ht : t.val = 313 * cc.val + s.val)
    (r : Fin 1024) :
    sblk m c t (ix3 (0 : Fin 1) r (0 : Fin 1)) = spad (m ((c : Thread nD τ).loc main_arg1)) (edgeOf cc s r) := by
  have hq : 1024 * s.val + r.val < 320512 := by have := s.isLt; have := r.isLt; omega
  have h1 : sblk m c t (ix3 (0 : Fin 1) r (0 : Fin 1))
      = V m c main_v6 (ix3 cc (⟨1024 * s.val + r.val, hq⟩ : Fin 320512) (0 : Fin 1)) := by
    show V m c main_v6 (((cfg0.win 1).blk t).view.emb (ix3 (0 : Fin 1) r (0 : Fin 1))) = _
    obtain ⟨-, -, e2, e3, e4, -⟩ := index_facts t
    refine congrArg (V m c main_v6) ?_
    funext a; apply Fin.ext
    have := cc.isLt; have := s.isLt
    match a with
    | ⟨0, _⟩ => show win0_1.index t (0 : Fin 3) * 1 + 1 * 0 = cc.val; omega
    | ⟨1, _⟩ => show win0_1.index t (1 : Fin 3) * 1024 + 1 * r.val = 1024 * s.val + r.val; omega
    | ⟨2, _⟩ => show win0_1.index t (2 : Fin 3) * 1 + 1 * 0 = 0; omega
  refine h1.trans ((V_v6 m c cc ⟨1024 * s.val + r.val, hq⟩).trans (congrArg (spad _) (Fin.ext ?_)))
  show cc.val * 320512 + (1024 * s.val + r.val) = cc.val * 320512 + s.val * 1024 + r.val
  omega

/-- The destination words of a point's rows, likewise. -/
private theorem dblk_apply (c : Dev nD) (t : Fin cfg0.N) (cc : Fin 2) (s : Fin 313) (ht : t.val = 313 * cc.val + s.val)
    (r : Fin 1024) :
    dblk m c t (ix3 (0 : Fin 1) (0 : Fin 1) r) = dpad (m ((c : Thread nD τ).loc main_arg1)) (edgeOf cc s r) := by
  have hq : 1024 * s.val + r.val < 320512 := by have := s.isLt; have := r.isLt; omega
  have h1 : dblk m c t (ix3 (0 : Fin 1) (0 : Fin 1) r)
      = V m c main_v8 (ix3 cc (0 : Fin 1) (⟨1024 * s.val + r.val, hq⟩ : Fin 320512)) := by
    show V m c main_v8 (((cfg0.win 2).blk t).view.emb (ix3 (0 : Fin 1) (0 : Fin 1) r)) = _
    obtain ⟨-, -, -, -, -, e5, e6, e7, -⟩ := index_facts t
    refine congrArg (V m c main_v8) ?_
    funext a; apply Fin.ext
    have := cc.isLt; have := s.isLt
    match a with
    | ⟨0, _⟩ => show win0_2.index t (0 : Fin 3) * 1 + 1 * 0 = cc.val; omega
    | ⟨1, _⟩ => show win0_2.index t (1 : Fin 3) * 1 + 1 * 0 = 0; omega
    | ⟨2, _⟩ => show win0_2.index t (2 : Fin 3) * 1024 + 1 * r.val = 1024 * s.val + r.val; omega
  refine h1.trans ((V_v8 m c cc ⟨1024 * s.val + r.val, hq⟩).trans (congrArg (dpad _) (Fin.ext ?_)))
  show cc.val * 320512 + (1024 * s.val + r.val) = cc.val * 320512 + s.val * 1024 + r.val
  omega

/-- At a core's first chunk the block ends as one step from zero. -/
private theorem outs_reset (c : Dev nD) (t : Fin cfg0.N) (h0 : t.val % 313 = 0) :
    outsAt0 m c t.val t.isLt = stepFn (xblk m c t) (sblk m c t) (dblk m c t) (fun _ => 0) := by
  rw [outsAt0_A m c t h0]
  exact (out0_A_3_eq c (grid0.coords t) (ms0_0 t) (hs0_0 t) (ms0_1 t) (hs0_1 t) (ms0_2 t) (hs0_2 t) (ms0_3 t) (hs0_3 t)
    scM0_0 (Memref.isWhole_whole _) ((hcond0_0 t).mpr h0) (xblk m c t) (sblk m c t) (dblk m c t)).trans
    ((congrArg (bodyFn (F := Ideal) (xblk m c t) (sblk m c t) (dblk m c t)) (funext pay1_apply)).trans
      (bodyFn_ideal (xblk m c t) (sblk m c t) (dblk m c t) (fun _ => 0)))

/-- At a later chunk the block ends as one step from what the chunk before left. -/
private theorem outs_step (c : Dev nD) (t : Fin cfg0.N) (h0 : ¬t.val % 313 = 0) :
    outsAt0 m c t.val t.isLt = stepFn (xblk m c t) (sblk m c t) (dblk m c t)
      (outsAt0 m c (t.val - 1) (Nat.lt_of_le_of_lt (Nat.sub_le _ _) t.isLt)) := by
  rw [outsAt0_B m c t h0]
  exact (out0_B_3_eq c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) (xblk m c t) (sblk m c t) (dblk m c t)
    (outsAt0 m c (t.val - 1) (Nat.lt_of_le_of_lt (Nat.sub_le _ _) t.isLt))).trans
    (bodyFn_ideal (xblk m c t) (sblk m c t) (dblk m c t) (outsAt0 m c (t.val - 1) (Nat.lt_of_le_of_lt (Nat.sub_le _ _) t.isLt)))

/-- A point's core is below 2. -/
private theorem core_lt (t : Fin cfg0.N) : t.val / 313 < 2 := by
  have : t.val < 626 := lt_of_lt_of_eq t.isLt (show cfg0.N = 626 from N_0)
  omega

/-- What point `n` adds at entry `y` of the block: its chunk sum (nothing past the grid). -/
private def addend (c : Dev nD) (n : ℕ) (y : S1x10240x128.Idx) : EReal :=
  if h : n < cfg0.N then
    chunkSum (xblk m c ⟨n, h⟩) (fun r => sblk m c ⟨n, h⟩ (ix3 (0 : Fin 1) r (0 : Fin 1)))
      (fun r => dblk m c ⟨n, h⟩ (ix3 (0 : Fin 1) (0 : Fin 1) r)) (y 1).val ⟨(y 2).val, (y 2).isLt⟩
  else 0

/-- One step at a point of the grid adds the point's addend to every entry. -/
private theorem stepFn_apply (c : Dev nD) (n : ℕ) (h : n < cfg0.N) (acc : S1x10240x128.Idx → EReal) (y : S1x10240x128.Idx) :
    stepFn (xblk m c ⟨n, h⟩) (sblk m c ⟨n, h⟩) (dblk m c ⟨n, h⟩) acc y = acc y + addend m c n y := by
  show acc y + chunkSum _ _ _ _ _ = acc y + addend m c n y
  unfold addend
  rw [dif_pos h]

/-- The addend of chunk `s` of core `cc` is `chunkAt` of the program's two arguments. -/
private theorem addend_eq (c : Dev nD) (cc : Fin 2) (s : ℕ) (hs : s < 313) (y : S1x10240x128.Idx) :
    addend m c (313 * cc.val + s) y
      = chunkAt (m ((c : Thread nD τ).loc main_arg0)) (m ((c : Thread nD τ).loc main_arg1)) cc s (y 1).val
          ⟨(y 2).val, (y 2).isLt⟩ := by
  have hN : 313 * cc.val + s < cfg0.N := by rw [show cfg0.N = 626 from N_0]; have := cc.isLt; omega
  have e0 : xblk m c ⟨313 * cc.val + s, hN⟩ = xpad (m ((c : Thread nD τ).loc main_arg0)) :=
    (xblk_eq m c ⟨313 * cc.val + s, hN⟩).trans (V_v10 m c)
  have e1 : (fun r : Fin 1024 => sblk m c ⟨313 * cc.val + s, hN⟩ (ix3 (0 : Fin 1) r (0 : Fin 1)))
      = fun r => spad (m ((c : Thread nD τ).loc main_arg1)) (edgeOf cc ⟨s, hs⟩ r) :=
    funext fun r => sblk_apply m c ⟨313 * cc.val + s, hN⟩ cc ⟨s, hs⟩ rfl r
  have e2 : (fun r : Fin 1024 => dblk m c ⟨313 * cc.val + s, hN⟩ (ix3 (0 : Fin 1) (0 : Fin 1) r))
      = fun r => dpad (m ((c : Thread nD τ).loc main_arg1)) (edgeOf cc ⟨s, hs⟩ r) :=
    funext fun r => dblk_apply m c ⟨313 * cc.val + s, hN⟩ cc ⟨s, hs⟩ rfl r
  unfold addend chunkAt
  rw [dif_pos hN, dif_pos hs, e0, e1, e2]

/-- At a core's last chunk the block holds the core's output. -/
private theorem outs_flush (c : Dev nD) (t : Fin cfg0.N) (hf : t.val % 313 = 312) (y : S1x10240x128.Idx) :
    outsAt0 m c t.val t.isLt y
      = coreOut (m ((c : Thread nD τ).loc main_arg0)) (m ((c : Thread nD τ).loc main_arg1)) ⟨t.val / 313, core_lt t⟩
          (y 1).val ⟨(y 2).val, (y 2).isLt⟩ := by
  have h' : 313 * (t.val / 313) + t.val % 313 < cfg0.N := by rw [Nat.div_add_mod]; exact t.isLt
  have hfold := Pipeline.eq_accAt_of_mod (N := cfg0.N) (f := fun n h => outsAt0 m c n h) 313
    (fun n h => stepFn (xblk m c ⟨n, h⟩) (sblk m c ⟨n, h⟩) (dblk m c ⟨n, h⟩) (fun _ => 0))
    (fun n h acc => stepFn (xblk m c ⟨n, h⟩) (sblk m c ⟨n, h⟩) (dblk m c ⟨n, h⟩) acc)
    (fun n h e => outs_reset m c ⟨n, h⟩ e)
    (fun n h e => outs_step m c ⟨n + 1, h⟩ e)
    (by decide) t.val t.isLt h'
  have hacc := Pipeline.accAt_add_apply (N := cfg0.N)
    (fun n h => stepFn (xblk m c ⟨n, h⟩) (sblk m c ⟨n, h⟩) (dblk m c ⟨n, h⟩) (fun _ => 0))
    (fun n h acc => stepFn (xblk m c ⟨n, h⟩) (sblk m c ⟨n, h⟩) (dblk m c ⟨n, h⟩) acc)
    (fun _ => (0 : EReal)) (addend m c) (313 * (t.val / 313)) 312
    (fun h i => stepFn_apply m c _ h _ i)
    (fun n h acc i _ _ => stepFn_apply m c n h acc i)
    (t.val % 313) (by omega) h' y
  refine (congrFun hfold y).trans (hacc.trans ?_)
  unfold coreOut
  rw [hf]
  refine congrArg (fun z : EReal => 0 + z) (Finset.sum_congr rfl (fun s hs => ?_))
  exact addend_eq m c ⟨t.val / 313, core_lt t⟩ s (Finset.mem_range.mp hs) y

/-- `coreOut` at equal coordinates. -/
private theorem coreOut_congr (x : (⟨2, ![10000, 128]⟩ : Shape).Idx → EReal) (ei : (⟨2, ![2, 640000]⟩ : Shape).Idx → BitVec 32)
    (k k' : Fin 2) (n n' : ℕ) (d d' : Fin 128) (hk : k.val = k'.val) (hn : n = n') (hd : d.val = d'.val) :
    coreOut x ei k n d = coreOut x ei k' n' d' := by
  obtain rfl := Fin.ext hk
  obtain rfl := hn
  obtain rfl := Fin.ext hd
  rfl

/-- What a core's last chunk writes back is the core's block of `Gout`. -/
private theorem flushed_eq (c : Dev nD) (t : Fin cfg0.N) (hf : (cfg0.win 3).flush t = true) :
    (dats m 0 c).flushed 3 t = ((cfg0.win 3).blk t).view.read (Elt Ideal)
      (Gout (m ((c : Thread nD τ).loc main_arg0)) (m ((c : Thread nD τ).loc main_arg1))) := by
  have h312 : t.val % 313 = 312 := (flush0_3 t).mp hf
  show (cfg0.win 3).cut (grid0.coords t) ((dats m 0 c).after 3 t) = _
  rw [after0_3]
  funext y
  show outsAt0 m c t.val t.isLt ((cfg0.win 3).xinj (grid0.coords t) y)
    = Gout (m ((c : Thread nD τ).loc main_arg0)) (m ((c : Thread nD τ).loc main_arg1)) (((cfg0.win 3).blk t).view.emb y)
  refine (outs_flush m c t h312 _).trans ?_
  unfold Gout
  obtain ⟨-, -, -, -, -, -, -, -, e8, e9, e10⟩ := index_facts t
  have hy0 : (y 0).val < 1 := (y 0).isLt
  refine coreOut_congr _ _ _ _ _ _ _ _ ?_ ?_ ?_
  · show t.val / 313 = win0_3.index t (0 : Fin 3) * 1 + 1 * (y 0).val; omega
  · show (y 1).val = win0_3.index t (1 : Fin 3) * 10240 + 1 * (y 1).val; omega
  · show (y 2).val = win0_3.index t (2 : Fin 3) * 128 + 1 * (y 2).val; omega

/-- An index of the output array is in point `t`'s block iff each coordinate is in the block's range on its axis. -/
private theorem mem_blk3 (t : Fin cfg0.N) (i : S2x10240x128.Idx) :
    i ∈ ((cfg0.win 3).blk t).view.set ↔ ∀ a : Fin 3, win0_3.index t a * S1x10240x128.size a ≤ (i a).val
      ∧ (i a).val < win0_3.index t a * S1x10240x128.size a + S1x10240x128.size a := by
  show i ∈ ((View.whole main_v11).slice (win0_3.rect t)).set ↔ _
  rw [View.set_slice_whole, Rect.mem_set_unit]
  exact Iff.rfl

/-- Every index of the output array lies in the block its core writes back after its last chunk. -/
private theorem cover3 (i : S2x10240x128.Idx) :
    ∃ t : Fin cfg0.N, (cfg0.win 3).flush t = true ∧ i ∈ ((cfg0.win 3).blk t).view.set := by
  have hN : cfg0.N = 626 := N_0
  have hi0 : (i 0).val < 2 := (i 0).isLt
  have hi1 : (i 1).val < 10240 := (i 1).isLt
  have hi2 : (i 2).val < 128 := (i 2).isLt
  obtain ⟨t, tv⟩ : ∃ t : Fin cfg0.N, t.val = 313 * (i 0).val + 312 := ⟨⟨313 * (i 0).val + 312, by rw [hN]; omega⟩, rfl⟩
  refine ⟨t, (flush0_3 t).mpr (by omega), ?_⟩
  rw [mem_blk3]
  obtain ⟨-, -, -, -, -, -, -, -, e8, e9, e10⟩ := index_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 10240 ≤ (i 1).val ∧ (i 1).val < win0_3.index t (1 : Fin 3) * 10240 + 10240; omega
  | ⟨2, _⟩ => show win0_3.index t (2 : Fin 3) * 128 ≤ (i 2).val ∧ (i 2).val < win0_3.index t (2 : Fin 3) * 128 + 128; omega

/-- The output array ends as the two cores' partial sums. -/
theorem final3 (c : Dev nD) :
    (dats (F := Ideal) m 0 c).arrAt 3 cfg0.N
      = Gout (m ((c : Thread nD τ).loc main_arg0)) (m ((c : Thread nD τ).loc main_arg1)) :=
  (dats m 0 c).arrAt_eq_of_cover 3 (Gout (m ((c : Thread nD τ).loc main_arg0)) (m ((c : Thread nD τ).loc main_arg1)))
    (fun t hf => flushed_eq m c t hf) (fun i => cover3 i)

end Cert.MsgPass.K

end
-- ==== Proof.HostOut.lean ====
/-
  The program's result from the kernel's output array.

  After the region the program slices the two cores' slabs out of the `[2, 10240, 128]` output, drops the unit
  axis, adds them entry by entry and keeps the first 10000 nodes: the result at node `n`, feature `d` is the
  output at `(0, n, d)` plus the output at `(1, n, d)`.

  Each slab is read through one lemma: the slice `[k:k+1]` followed by the reshape that drops the unit axis is
  the array at `(k, n, d)`, because `(0, n, d)` and `(n, d)` sit at the same row-major position `n * 128 + d`.
  The last slice starts at offset `0` on both axes, so it reads the sum at the same `(n, d)`.
-/
import proofs.«425535_j10651518894406_2_alg».proof.Proof.Gen.KernelIdeal.Frame
import proofs.«425535_j10651518894406_2_alg».proof.Proof.Spec
import Idealize.ShloMosaic.Lib.ValueIdx
import Idealize.ShloMosaic.Lib.Pipeline.Value
import Idealize.ShloMosaic.Lib.StableHlo.Run

set_option maxRecDepth 16384

noncomputable section

open scoped BigOperators

namespace Cert.MsgPass.K

open Idealize.ShloMosaic Idealize.ShloMosaic.TcCoe Idealize.ShloMosaic.ValueIdx Idealize.SL.Sem
open Cert.KernelIdeal Cert.KernelIdeal.Gen Cert.MsgPass
open Idealize.ShloMosaic.Pipeline (Dat)

variable (m : (ℓ : Loc nD τ sig) → Buf (Elt Ideal) ℓ)

/-- Slab `k` of a `[2, 10240, 128]` array with its unit axis dropped, read at `(n, d)`, is the array at `(k, n, d)`. -/
private theorem slab_apply (x : S2x10240x128.Idx → EReal) (k : Fin 2)
    (h : S2x10240x128.Slices ![k.val, 0, 0] S1x10240x128) (j : S10240x128.Idx) :
    shapeCast S10240x128 (extractStridedSlice S1x10240x128 ![k.val, 0, 0] x h) shapeCasts_S1x10240x128_S10240x128 j
      = x (ix3 k (⟨(j 0).val, idx2_lt0 j⟩ : Fin 10240) (⟨(j 1).val, idx2_lt1 j⟩ : Fin 128)) := by
  have hj0 := idx2_lt0 j
  have hj1 := idx2_lt1 j
  rw [shapeCast_apply _ shapeCasts_S1x10240x128_S10240x128 j
    (ix3 (0 : Fin 1) (⟨(j 0).val, hj0⟩ : Fin 10240) (⟨(j 1).val, hj1⟩ : Fin 128))
    (by rewrite [Shape.rowMajor_val_three, Shape.rowMajor_val_two]
        show (0 * 10240 + (j 0).val) * 128 + (j 1).val = (j 0).val * 128 + (j 1).val
        omega)]
  exact extractStridedSlice_apply ![k.val, 0, 0] x h _ _ (fun a => match a with
    | ⟨0, _⟩ => by show k.val = k.val + 0; omega
    | ⟨1, _⟩ => by show (j 0).val = 0 + (j 0).val; omega
    | ⟨2, _⟩ => by show (j 1).val = 0 + (j 1).val; omega)

/-- The result is the sum of the two cores' slabs on the real nodes, whatever the output array `A` holds. -/
theorem tail_v17 (c : Dev nD) (A : S2x10240x128.Idx → EReal)
    (hA : (dats (F := Ideal) m 0 c).arrAt 3 cfg0.N = A) :
    Pipeline.afterTail₀ cfgs (dats (F := Ideal) m) 0 (V0 m) [hostOps1] c main_v17
      = fun i : S10000x128.Idx =>
          A (ix3 (0 : Fin 2) (⟨(i 0).val, by have := idx2_lt0 i; omega⟩ : Fin 10240) (⟨(i 1).val, idx2_lt1 i⟩ : Fin 128))
          + A (ix3 (1 : Fin 2) (⟨(i 0).val, by have := idx2_lt0 i; omega⟩ : Fin 10240) (⟨(i 1).val, idx2_lt1 i⟩ : Fin 128)) := by
  unfold Pipeline.afterTail₀
  simp only [hostOps1, List.flatten_cons, List.flatten_nil, List.append_nil]
  after_results
  have hW : Pipeline.withArrays (cfgs 0).spec c (V0 m c) (fun w => (dats (F := Ideal) m 0 c).arrAt w (cfgs 0).N)
      (Proc.devRef .tc main_v11) = A :=
    (Pipeline.withArrays_arr spec0 launch0.win.arr_inj c _ _ 3).trans hA
  rw [hW]
  funext i
  have hi0 := idx2_lt0 i
  have hi1 := idx2_lt1 i
  rw [extractStridedSlice_apply ![0, 0] _ slices_S10240x128_S10000x128_0_0 i
    (ix2 (⟨(i 0).val, by omega⟩ : Fin 10240) (⟨(i 1).val, hi1⟩ : Fin 128)) (fun a => match a with
      | ⟨0, _⟩ => by show (i 0).val = 0 + (i 0).val; omega
      | ⟨1, _⟩ => by show (i 1).val = 0 + (i 1).val; omega)]
  exact congrArg₂ (· + ·) (slab_apply A 0 _ _) (slab_apply A 1 _ _)

end Cert.MsgPass.K

end
-- ==== Proof.Words.lean ====
/-
  Thirty-two-bit index words as node numbers.  A word equals the word of a natural number `n < 2^31` exactly when its
  signed reading is `n`: this is the bridge between the kernel's one-hot comparison `word = n` and the host
  scatter's signed, unclamped reading of the same word.
-/
import Idealize.ShloMosaic.PureOps

namespace Cert.MsgPass

theorem word_eq_ofNat_iff_toInt (w : BitVec 32) (n : ℕ) (hn : n < 2 ^ 31) :
    w = BitVec.ofNat 32 n ↔ w.toInt = (n : ℤ) := by
  constructor
  · rintro rfl
    rw [BitVec.toInt_eq_msb_cond, BitVec.msb_eq_false_iff_two_mul_lt.mpr (by simp [BitVec.toNat_ofNat]; omega)]
    simp [BitVec.toNat_ofNat]; omega
  · intro h
    apply BitVec.eq_of_toInt_eq
    rw [h, BitVec.toInt_eq_msb_cond, BitVec.msb_eq_false_iff_two_mul_lt.mpr (by simp [BitVec.toNat_ofNat]; omega)]
    simp [BitVec.toNat_ofNat]; omega

end Cert.MsgPass
-- ==== Proof.Algebra.lean ====
/-
  The two cores' partial sums add up to the message-passing sum.

  Core `c`'s 313 chunks of 1024 rows enumerate the padded edges `c · 320512 + i · 1024 + r`; the two cores together
  enumerate all 641024 of them once.  A padding edge lands on node 10000 and so adds nothing to a real node.  For a
  real edge the inner one-hot sum over the 10240 padded rows picks row `src` of the padded table, which is the
  table's row when `src < 10000` and zero otherwise: exactly `rowOf`.  Only commutativity and associativity of the
  sum and `1 · y = y`, `0 · y = 0` are used: no finiteness of the table is needed.

  The enumeration is the bijection `(c, i, r) ↦ c · 320512 + i · 1024 + r` from `Fin 2 × Fin 313 × Fin 1024` onto
  `Fin 641024`, with inverse `e ↦ (e / 320512, e % 320512 / 1024, e % 1024)`; the sum over `Fin 641024` then splits
  as the first 640000 terms plus the last 1024, and each of the last 1024 is zero.
-/
import proofs.«425535_j10651518894406_2_alg».proof.Proof.Spec
import proofs.«425535_j10651518894406_2_alg».proof.Proof.Words
import Mathlib.Algebra.BigOperators.Fin
import Mathlib.Logic.Equiv.Fin.Basic

noncomputable section

open scoped BigOperators

namespace Cert.MsgPass

open Idealize.ShloMosaic Idealize.ShloMosaic.ValueIdx

/-- A word is the word of a number below `2 ^ 32` exactly when its value is that number. -/
private theorem word_eq_ofNat_iff_toNat (w : BitVec 32) (n : ℕ) (hn : n < 2 ^ 32) :
    w = BitVec.ofNat 32 n ↔ w.toNat = n := by
  constructor
  · rintro rfl
    rw [BitVec.toNat_ofNat]; exact Nat.mod_eq_of_lt hn
  · intro h
    apply BitVec.eq_of_toNat_eq
    rw [BitVec.toNat_ofNat, Nat.mod_eq_of_lt hn]; exact h

private theorem oh_of_toNat_eq (w : BitVec 32) (n : ℕ) (hn : n < 2 ^ 32) (h : w.toNat = n) : oh w n = 1 := by
  unfold oh; rw [if_pos ((word_eq_ofNat_iff_toNat w n hn).mpr h)]

private theorem oh_of_toNat_ne (w : BitVec 32) (n : ℕ) (hn : n < 2 ^ 32) (h : w.toNat ≠ n) : oh w n = 0 := by
  unfold oh; rw [if_neg (fun e => h ((word_eq_ofNat_iff_toNat w n hn).mp e))]

/-- The padded table at coordinates: the table's row below 10000, zero from there on. -/
private theorem xpad_ix2 (x : (⟨2, ![10000, 128]⟩ : Shape).Idx → EReal) (j : Fin 10240) (d : Fin 128) :
    xpad x (ix2 j d) = if h : j.val < 10000 then x (ix2 ⟨j.val, h⟩ d) else 0 := rfl

/-- The one-hot sum over the padded rows selects the row the word names. -/
theorem onehot_row (x : (⟨2, ![10000, 128]⟩ : Shape).Idx → EReal) (w : BitVec 32) (d : Fin 128) :
    (∑ j : Fin 10240, oh w j.val * xpad x (ix2 j d)) = rowOf x w d := by
  unfold rowOf
  by_cases hw : w.toNat < 10240
  · rw [Finset.sum_eq_single (⟨w.toNat, hw⟩ : Fin 10240)]
    · rw [oh_of_toNat_eq w w.toNat (by omega) rfl, one_mul, xpad_ix2]
    · intro j _ hj
      rw [oh_of_toNat_ne w j.val (by have := j.isLt; omega) (fun e => hj (Fin.ext e.symm)), zero_mul]
    · intro h; exact absurd (Finset.mem_univ _) h
  · rw [dif_neg (by omega)]
    refine Finset.sum_eq_zero (fun j _ => ?_)
    rw [oh_of_toNat_ne w j.val (by have := j.isLt; omega) (by have := j.isLt; omega), zero_mul]

/-- The padded edges by core, chunk and row: each of the 641024 once. -/
private def edgeEquiv : Fin 2 × Fin 313 × Fin 1024 ≃ Fin 641024 where
  toFun p := edgeOf p.1 p.2.1 p.2.2
  invFun e := (⟨e.val / 320512, by have := e.isLt; omega⟩, ⟨e.val % 320512 / 1024, by have := e.isLt; omega⟩,
    ⟨e.val % 1024, by omega⟩)
  left_inv := by
    rintro ⟨c, i, r⟩
    have := c.isLt; have := i.isLt; have := r.isLt
    refine Prod.ext (Fin.ext ?_) (Prod.ext (Fin.ext ?_) (Fin.ext ?_))
    · show (c.val * 320512 + i.val * 1024 + r.val) / 320512 = c.val; omega
    · show (c.val * 320512 + i.val * 1024 + r.val) % 320512 / 1024 = i.val; omega
    · show (c.val * 320512 + i.val * 1024 + r.val) % 1024 = r.val; omega
  right_inv := by
    intro e
    apply Fin.ext
    show e.val / 320512 * 320512 + e.val % 320512 / 1024 * 1024 + e.val % 1024 = e.val
    omega

/-- One core's output as the double sum over its chunks and their rows, the inner one-hot sum resolved. -/
private theorem coreOut_eq (x : (⟨2, ![10000, 128]⟩ : Shape).Idx → EReal)
    (ei : (⟨2, ![2, 640000]⟩ : Shape).Idx → BitVec 32) (c : Fin 2) (n : ℕ) (d : Fin 128) :
    coreOut x ei c n d
      = ∑ i : Fin 313, ∑ r : Fin 1024, oh (dpad ei (edgeOf c i r)) n * rowOf x (spad ei (edgeOf c i r)) d := by
  unfold coreOut
  rw [zero_add, Finset.sum_range]
  refine Finset.sum_congr rfl (fun i _ => ?_)
  unfold chunkAt
  rw [dif_pos i.isLt]
  unfold chunkSum
  refine Finset.sum_congr rfl (fun r _ => ?_)
  rw [onehot_row]

/-- The two cores' outputs at a real node add up to the aggregated messages. -/
theorem cores_sum_eq_G (x : (⟨2, ![10000, 128]⟩ : Shape).Idx → EReal) (ei : (⟨2, ![2, 640000]⟩ : Shape).Idx → BitVec 32)
    (n : Fin 10000) (d : Fin 128) :
    coreOut x ei 0 n.val d + coreOut x ei 1 n.val d = G x ei (ix2 n d) := by
  rw [coreOut_eq, coreOut_eq]
  show _ = ∑ e : Fin 640000, oh (ei (ix2 (1 : Fin 2) e)) n.val * rowOf x (ei (ix2 (0 : Fin 2) e)) d
  have h1 : ∀ F : Fin 641024 → EReal,
      (∑ i : Fin 313, ∑ r : Fin 1024, F (edgeOf 0 i r)) + (∑ i : Fin 313, ∑ r : Fin 1024, F (edgeOf 1 i r))
        = ∑ e : Fin 641024, F e := by
    intro F
    calc (∑ i : Fin 313, ∑ r : Fin 1024, F (edgeOf 0 i r)) + (∑ i : Fin 313, ∑ r : Fin 1024, F (edgeOf 1 i r))
        = ∑ c : Fin 2, ∑ i : Fin 313, ∑ r : Fin 1024, F (edgeOf c i r) :=
          (Fin.sum_univ_two (fun c : Fin 2 => ∑ i : Fin 313, ∑ r : Fin 1024, F (edgeOf c i r))).symm
      _ = ∑ p : Fin 2 × Fin 313 × Fin 1024, F (edgeOf p.1 p.2.1 p.2.2) := by
          rw [Fintype.sum_prod_type]
          refine Finset.sum_congr rfl (fun c _ => ?_)
          rw [Fintype.sum_prod_type]
      _ = ∑ e : Fin 641024, F e := Fintype.sum_equiv edgeEquiv _ _ (fun _ => rfl)
  rw [h1 (fun e => oh (dpad ei e) n.val * rowOf x (spad ei e) d)]
  have h2 : ∀ F : Fin (640000 + 1024) → EReal,
      (∑ e : Fin (640000 + 1024), F e)
        = (∑ e : Fin 640000, F (Fin.castAdd 1024 e)) + ∑ e : Fin 1024, F (Fin.natAdd 640000 e) :=
    fun F => Fin.sum_univ_add F
  rw [h2 (fun e => oh (dpad ei e) n.val * rowOf x (spad ei e) d)]
  have h3 : (∑ e : Fin 1024, oh (dpad ei (Fin.natAdd 640000 e)) n.val * rowOf x (spad ei (Fin.natAdd 640000 e)) d) = 0 := by
    refine Finset.sum_eq_zero (fun e _ => ?_)
    have hd : dpad ei (Fin.natAdd 640000 e) = 10000#32 := by
      unfold dpad
      rw [dif_neg (by show ¬ (640000 + e.val < 640000); omega)]
    rw [hd, oh_of_toNat_ne (10000#32) n.val (by have := n.isLt; omega) (by
      have := n.isLt
      show (10000 : ℕ) ≠ n.val
      omega), zero_mul]
  rw [h3, add_zero]
  refine Finset.sum_congr rfl (fun e _ => ?_)
  have hd : dpad ei (Fin.castAdd 1024 e) = ei (ix2 (1 : Fin 2) e) := by
    unfold dpad
    rw [dif_pos (by show e.val < 640000; exact e.isLt)]
    rfl
  have hs : spad ei (Fin.castAdd 1024 e) = ei (ix2 (0 : Fin 2) e) := by
    unfold spad
    rw [dif_pos (by show e.val < 640000; exact e.isLt)]
    rfl
  rw [hd, hs]

end Cert.MsgPass

end
-- ==== Proof.KernelRun.lean ====
/-
  The kernel program's run, read: it ends with the message-passing sum of its two arguments, the arguments
  unchanged.  The frame run leaves the output array at the two cores' partial sums and every later buffer at what
  the lines after the region compute from it; the result is their sum on the real nodes, which is `G`.
-/
import proofs.«425535_j10651518894406_2_alg».proof.Proof.Accum
import proofs.«425535_j10651518894406_2_alg».proof.Proof.HostOut
import proofs.«425535_j10651518894406_2_alg».proof.Proof.Algebra

set_option maxRecDepth 16384

noncomputable section

open scoped BigOperators

namespace Cert.MsgPass.K

open Idealize.ShloMosaic Idealize.ShloMosaic.TcCoe Idealize.ShloMosaic.ValueIdx Idealize.SL.Sem
open Cert.KernelIdeal Cert.KernelIdeal.Gen Cert.MsgPass
open Idealize.ShloMosaic.Pipeline (Dat)

variable (m : (ℓ : Loc nD τ sig) → Buf (Elt Ideal) ℓ)

variable (ρ : Dev nD → PrngReg)

/-- The sum of the two slabs of the partial-sum array on the real nodes is `G`. -/
theorem slabs_eq_G (x : S10000x128.Idx → EReal) (ei : S2x640000.Idx → BitVec 32) :
    (fun i : S10000x128.Idx =>
        Gout x ei (ix3 (0 : Fin 2) (⟨(i 0).val, by have := idx2_lt0 i; omega⟩ : Fin 10240) (⟨(i 1).val, idx2_lt1 i⟩ : Fin 128))
        + Gout x ei (ix3 (1 : Fin 2) (⟨(i 0).val, by have := idx2_lt0 i; omega⟩ : Fin 10240) (⟨(i 1).val, idx2_lt1 i⟩ : Fin 128)))
      = G x ei := by
  funext i
  have h := cores_sum_eq_G x ei (⟨(i 0).val, idx2_lt0 i⟩ : Fin 10000) (⟨(i 1).val, idx2_lt1 i⟩ : Fin 128)
  have hi : (ix2 (⟨(i 0).val, idx2_lt0 i⟩ : Fin 10000) (⟨(i 1).val, idx2_lt1 i⟩ : Fin 128) : S10000x128.Idx) = i := by
    funext a; match a with | ⟨0, _⟩ => rfl | ⟨1, _⟩ => rfl
  rw [hi] at h
  exact h

/-- Every weakly fair execution of the kernel program ends with the result at `G` of the arguments. -/
theorem run : θ_run defs (onTc (τ := τ) (main (F := Ideal))) ⟨m, fun _ => 0, ρ⟩ fun r => ∀ c : Dev nD,
      r.2.mem ((c : Thread nD τ).loc main_v17)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(((h c).2 main_v17 (Pipeline.mem_restRefs_of main_v17 (by decide) (by decide))).trans
          (tail_v17 m c _ (final3 m c))).trans (slabs_eq_G _ _),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.MsgPass.K

end
-- ==== Proof.RefValue.lean ====
/-
  The reference program's result over the extended reals is the message-passing sum, when every source word names
  a row.

  The reference wraps a negative source word by adding 10000, then gathers: the gather reads the row the wrapped
  word names, read signed and clamped into the table.  For a word in `[0, 10000)` neither the wrap nor the clamp
  changes anything: the gathered row is the table's row `src`.  The scatter-add starts from zero and adds update
  row `e` at node `dst e` read signed and NOT clamped, dropping it when that is no node: at node `n`, feature `d`
  it is `0 +` the sum over the updates `(e, d')` with `dst e = n` and `d' = d`, which is the sum over the edges with
  `dst e = n` of the gathered row at `d`.  A word read signed is `n` exactly when it is the word of `n`.

  In order: the gather's operand index for these dimension numbers (row: the start word read signed and clamped to
  `[0, 9999]`; column: the result's); the scatter's start and window on each axis, and from them that update `(e, d')`
  lands on `(n, d)` exactly when `dst e` read signed is `n` and `d' = d`; the two index words read back through the
  slices, reshapes and broadcasts to the argument's rows 1 and 0; then the filtered sum over updates is split by
  coordinates, the feature coordinate collapses to `d`, and each edge's term is matched with `oh · rowOf`.
-/
import proofs.«425535_j10651518894406_2_alg».proof.Proof.Gen.ReferenceIdeal.Read
import proofs.«425535_j10651518894406_2_alg».proof.Proof.Spec
import proofs.«425535_j10651518894406_2_alg».proof.Proof.Words
import Idealize.ShloMosaic.Lib.ValueIdx
import Idealize.ShloMosaic.PureOps.Ideal.Laws

set_option maxRecDepth 16384

noncomputable section

open scoped BigOperators

namespace Cert.MsgPass.R

open Idealize.ShloMosaic Idealize.ShloMosaic.TcCoe Idealize.ShloMosaic.ValueIdx Idealize.SL.Sem
open Cert.ReferenceIdeal Cert.ReferenceIdeal.Gen Cert.ReferenceIdeal.Read Cert.MsgPass

private abbrev gd := gather_S10000x128_S640000x1_S640000x128_1_0_n_n_0_1_1128
private abbrev sd := scatter_S10000x128_S640000x1_S640000x128_1_0_0_1

/-- The gather's operand index: row the start word read signed and clamped, column the result's. -/
private theorem gd_operandIdx (j : S640000x128.Idx) (idx : IVec S640000x1 32) :
    gd.operandIdx j idx = ix2 (⟨min (idx (ix2 (j 0) (0 : Fin 1))).toInt.toNat 9999, by omega⟩ : Fin 10000) (j 1) := by
  funext a
  refine Fin.ext ?_
  match a with
  | ⟨0, _⟩ =>
    show gd.start j idx 0 + gd.batchCoord j 0 + gd.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx j ⟨List.idxOf (0 : Fin 2) gd.startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show gd.start j idx 1 + gd.batchCoord j 1 + gd.offCoord j 1 = _
    rw [GatherDims.batchCoord_eq_zero _ _ _ List.not_mem_nil]
    unfold GatherDims.start
    rw [dif_neg (show ¬ (1 : Fin 2) ∈ gd.startIndexMap by decide)]
    simp only [Nat.add_zero, Nat.zero_add]
    unfold GatherDims.offCoord
    rw [dif_pos (show (1 : Fin 2) ∈ gd.sKept by decide)]
    rfl

private theorem sd_start0 (j : S640000x128.Idx) (idx : IVec S640000x1 32) :
    sd.start j idx 0 = (idx (ix2 (j 0) (0 : Fin 1))).toInt := by
  unfold ScatterDims.start
  rw [dif_pos (show (0 : Fin 2) ∈ sd.scatterDimsToOperandDims from List.mem_singleton.mpr rfl)]
  have hsi : sd.siIdx j ⟨List.idxOf (0 : Fin 2) sd.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

private theorem sd_start1 (j : S640000x128.Idx) (idx : IVec S640000x1 32) : sd.start j idx 1 = 0 := by
  unfold ScatterDims.start
  rw [dif_neg (show ¬ (1 : Fin 2) ∈ sd.scatterDimsToOperandDims by decide)]

private theorem sd_window0 (j : S640000x128.Idx) : sd.window j 0 = 0 := by
  unfold ScatterDims.window
  rw [dif_neg (show ¬ (0 : Fin 2) ∈ sd.sKept by decide)]

private theorem sd_window1 (j : S640000x128.Idx) : sd.window j 1 = (j 1).val := by
  unfold ScatterDims.window
  rw [dif_pos (show (1 : Fin 2) ∈ sd.sKept by decide)]
  rfl

/-- Where an update lands: update `(e, d')` lands on `(n, d)` exactly when the destination word of `e` read signed
    is `n` and `d' = d`. -/
private theorem sd_resultIdx_iff (j : S640000x128.Idx) (idx : IVec S640000x1 32) (i : S10000x128.Idx) :
    sd.resultIdx? j idx = some i ↔ (idx (ix2 (j 0) (0 : Fin 1))).toInt = ((i 0).val : ℤ) ∧ (j 1).val = (i 1).val := by
  have hi0 : (i 0).val < 10000 := idx2_lt0 i
  have hi1 : (i 1).val < 128 := idx2_lt1 i
  have hj1 : (j 1).val < 128 := idx2_lt1 j
  unfold ScatterDims.resultIdx?
  constructor
  · intro h
    split at h
    · rename_i hall
      have hf := Option.some.inj h
      have h0 := congrArg (fun f => (f 0).val) hf
      have h1 := congrArg (fun f => (f 1).val) hf
      have ha0 := hall 0
      simp only [sd_start0, sd_start1, sd_window0, sd_window1] at h0 h1 ha0
      constructor
      · omega
      · omega
    · exact absurd h (by simp)
  · rintro ⟨h0, h1⟩
    have hall : ∀ a, 0 ≤ sd.start j idx a + sd.window j a ∧ sd.start j idx a + sd.window j a < S10000x128.size a := by
      intro a
      match a with
      | ⟨0, _⟩ =>
        show 0 ≤ sd.start j idx 0 + sd.window j 0 ∧ sd.start j idx 0 + sd.window j 0 < (10000 : ℕ)
        rw [sd_start0, sd_window0]; omega
      | ⟨1, _⟩ =>
        show 0 ≤ sd.start j idx 1 + sd.window j 1 ∧ sd.start j idx 1 + sd.window j 1 < (128 : ℕ)
        rw [sd_start1, sd_window1]; omega
    rw [dif_pos hall]
    congr 1
    funext a
    refine Fin.ext ?_
    match a with
    | ⟨0, _⟩ =>
      show (sd.start j idx 0 + sd.window j 0).toNat = (i 0).val
      rw [sd_start0, sd_window0]; omega
    | ⟨1, _⟩ =>
      show (sd.start j idx 1 + sd.window j 1).toNat = (i 1).val
      rw [sd_start1, sd_window1]; omega

/-- The destination word of edge `e`, as the scatter reads it. -/
private theorem v12_at (x1 : (⟨S2x640000, .i32⟩ : BufTy).Contents (Elt Ideal)) (e : Fin 640000) :
    val_main_v12 (F := Ideal) x1 (ix2 e (0 : Fin 1)) = x1 (ix2 (1 : Fin 2) e) := by
  rw [val_main_v12_apply, val_main_v3_apply, val_main_v2_apply]
  congr 1
  funext a
  refine Fin.ext ?_
  match a with
  | ⟨0, _⟩ => rfl
  | ⟨1, _⟩ => exact Nat.mod_eq_of_lt e.isLt

/-- A word that is not negative read signed is its own number. -/
private theorem toInt_toNat_of_nonneg (w : BitVec 32) (h0 : 0 ≤ w.toInt) : w.toInt.toNat = w.toNat := by
  have hlt := w.isLt
  rw [BitVec.toInt_eq_toNat_cond] at h0 ⊢
  split at h0 <;> rename_i hc
  · rw [if_pos hc]; omega
  · omega

/-- The source word of edge `e`, as the gather reads it: the wrap leaves a word that is not negative alone. -/
private theorem v9_at (x1 : (⟨S2x640000, .i32⟩ : BufTy).Contents (Elt Ideal)) (e : Fin 640000)
    (h0 : 0 ≤ (x1 (ix2 (0 : Fin 2) e)).toInt) :
    val_main_v9 (F := Ideal) x1 (ix2 e (0 : Fin 1)) = x1 (ix2 (0 : Fin 2) e) := by
  have hv1 : val_main_v1 (F := Ideal) x1 (idx_main_v9 (ix2 e (0 : Fin 1))) = x1 (ix2 (0 : Fin 2) e) := by
    rw [val_main_v1_apply, val_main_v0_apply]
    congr 1
    funext a
    refine Fin.ext ?_
    match a with
    | ⟨0, _⟩ => rfl
    | ⟨1, _⟩ => exact Nat.mod_eq_of_lt e.isLt
  rw [val_main_v9_apply, val_main_v8_apply, val_main_v5_apply, val_main_v4_apply, val_main_c_apply, hv1]
  have hc : IntOp.cmpi .slt (x1 (ix2 (0 : Fin 2) e)) 0#32 = 0#1 := by
    unfold IntOp.cmpi
    have : BitVec.slt (x1 (ix2 (0 : Fin 2) e)) 0#32 = false := by
      unfold BitVec.slt
      simp only [decide_eq_false_iff_not, not_lt]
      exact h0
    show BitVec.ofBool (BitVec.slt (x1 (ix2 (0 : Fin 2) e)) 0#32) = 0#1
    rw [this]; rfl
  rw [hc, select_zero]

/-- The scatter-add at the extended reals, read at an index: the operand there plus the updates that land there. -/
private theorem scatterAdd_at (a : S10000x128.Idx → EReal) (b : IVec S640000x1 32) (c : S640000x128.Idx → EReal) (i : S10000x128.Idx) :
    Host.scatterAdd (F := Ideal) (φ := .f32) sd a b c i
      = a i + ∑ j ∈ Finset.univ.filter (fun j => sd.resultIdx? j b = some i), c j := rfl

/-- The scatter's operand is zero everywhere. -/
private theorem v11_at (i : S10000x128.Idx) : val_main_v11 (F := Ideal) i = (0 : EReal) := by
  rw [val_main_v11_apply, val_main_cst_apply, Ideal.ofBits_def, Ideal.ofBits_zero_f32]

/-- The scatter-add from zero at `i`: the sum of the updates that land on `i`. The three operands are named before the
    operation is read, so that nothing of them is computed. -/
private theorem v13_at (x0 : (⟨S10000x128, .f32⟩ : BufTy).Contents (Elt Ideal)) (x1 : (⟨S2x640000, .i32⟩ : BufTy).Contents (Elt Ideal))
    (i : S10000x128.Idx) :
    val_main_v13 (F := Ideal) x0 x1 i
      = ∑ j ∈ Finset.univ.filter (fun j => sd.resultIdx? j (val_main_v12 (F := Ideal) x1) = some i), val_main_v10 (F := Ideal) x0 x1 j := by
  unfold val_main_v13
  have h0 := v11_at i
  revert h0
  generalize val_main_v11 (F := Ideal) = a
  generalize val_main_v12 (F := Ideal) x1 = b
  generalize val_main_v10 (F := Ideal) x0 x1 = c
  intro h0
  rw [scatterAdd_at a b c i, h0, zero_add]

/-- The updates that land on `i`, by coordinates: edge by edge, feature by feature. -/
private theorem landed_sum (x1 : (⟨S2x640000, .i32⟩ : BufTy).Contents (Elt Ideal)) (f : S640000x128.Idx → EReal) (i : S10000x128.Idx) :
    ∑ j ∈ Finset.univ.filter (fun j => sd.resultIdx? j (val_main_v12 (F := Ideal) x1) = some i), f j
      = ∑ e : Fin 640000, ∑ b : Fin 128,
          if (x1 (ix2 (1 : Fin 2) e)).toInt = ((i 0).val : ℤ) ∧ b.val = (i 1).val then f (ix2 e b) else 0 := by
  simp only [sd_resultIdx_iff]
  rw [Finset.sum_filter, sum_idx2]
  refine Finset.sum_congr rfl (fun e _ => Finset.sum_congr rfl (fun b _ => ?_))
  show (if (val_main_v12 (F := Ideal) x1 (ix2 e (0 : Fin 1))).toInt = ((i 0).val : ℤ) ∧ b.val = (i 1).val then f (ix2 e b) else 0) = _
  rw [v12_at]

/-- The gathered row of edge `e` at feature `d`, when the source word names a row: the table's row. -/
private theorem v10_at (x0 : (⟨S10000x128, .f32⟩ : BufTy).Contents (Elt Ideal)) (x1 : (⟨S2x640000, .i32⟩ : BufTy).Contents (Elt Ideal))
    (e : Fin 640000) (d : Fin 128) (hs0 : 0 ≤ (x1 (ix2 (0 : Fin 2) e)).toInt) (hs1 : (x1 (ix2 (0 : Fin 2) e)).toInt < 10000) :
    val_main_v10 (F := Ideal) x0 x1 (ix2 e d) = rowOf x0 (x1 (ix2 (0 : Fin 2) e)) d := by
  have hn := toInt_toNat_of_nonneg _ hs0
  have hlt : (x1 (ix2 (0 : Fin 2) e)).toNat < 10000 := by omega
  unfold rowOf
  rw [dif_pos hlt]
  show x0 (gd.operandIdx (ix2 e d) (val_main_v9 (F := Ideal) x1)) = _
  rw [gd_operandIdx]
  show x0 (ix2 (⟨min (val_main_v9 (F := Ideal) x1 (ix2 e (0 : Fin 1))).toInt.toNat 9999, _⟩ : Fin 10000) d) = _
  congr 1
  funext a
  refine Fin.ext ?_
  match a with
  | ⟨0, _⟩ =>
    show min (val_main_v9 (F := Ideal) x1 (ix2 e (0 : Fin 1))).toInt.toNat 9999 = (x1 (ix2 (0 : Fin 2) e)).toNat
    rw [v9_at x1 e hs0]; omega
  | ⟨1, _⟩ => rfl

/-- The reference's last stage is `G` of the two arguments. -/
theorem ref_eq (x0 : (⟨S10000x128, .f32⟩ : BufTy).Contents (Elt Ideal)) (x1 : (⟨S2x640000, .i32⟩ : BufTy).Contents (Elt Ideal))
    (h : SrcInRange x1) : val_main_v13 (F := Ideal) x0 x1 = G x0 x1 := by
  funext i
  have hi0 : (i 0).val < 10000 := idx2_lt0 i
  have hi1 : (i 1).val < 128 := idx2_lt1 i
  rw [v13_at, landed_sum]
  unfold G
  refine Finset.sum_congr rfl (fun e _ => ?_)
  obtain ⟨hs0, hs1⟩ := h e
  by_cases hc : (x1 (ix2 (1 : Fin 2) e)).toInt = ((i 0).val : ℤ)
  · simp only [hc, true_and]
    rw [Finset.sum_eq_single (⟨(i 1).val, hi1⟩ : Fin 128)
      (fun b _ hb => if_neg (fun hv => hb (Fin.ext hv)))
      (fun hn => absurd (Finset.mem_univ _) hn), if_pos rfl]
    unfold oh
    rw [if_pos ((word_eq_ofNat_iff_toInt _ _ (by omega)).mpr hc), one_mul]
    exact v10_at x0 x1 e _ hs0 hs1
  · simp only [hc, false_and, if_false, Finset.sum_const_zero]
    unfold oh
    rw [if_neg (fun hw => hc ((word_eq_ofNat_iff_toInt _ _ (by omega)).mp hw)), zero_mul]

end Cert.MsgPass.R

end
-- ==== Proof.PreRange.lean ====
/-
  What the precondition says about the source words.

  The precondition is the conjunction of three reductions by `and`: every table entry is below `+inf` in absolute
  value, every source word is `≥ 0` signed, every source word is `< 10000` signed.  When the conjunction is the
  one-bit word 1 each reduction is 1, and a reduction by `and` from 1 is 1 exactly when every entry is 1; the source
  word of edge `e` is entry `(0, e)` of the edge list (a slice of row 0, reshaped).

  The layout step: entry `e` of the reshaped slice sits at row-major position `e` of the `1 × 640000` slice, which is
  its entry `(0, e)`, which the slice with offsets `(0, 0)` reads from entry `(0, e)` of the edge list.  The bound of
  each comparison is a scalar constant broadcast along the edges, so it is that constant at every edge.  A signed
  `≥` that is 1 says the right word's signed value is at most the left's; a signed `<` that is 1 says the left word's
  signed value is below the right's; the signed values of the words 0 and 10000 are 0 and 10000.
-/
import proofs.«425535_j10651518894406_2_alg».proof.Pre_finite_inputs
import proofs.«425535_j10651518894406_2_alg».proof.Proof.Gen.Pre_finite_inputs
import proofs.«425535_j10651518894406_2_alg».proof.Proof.Spec
import Idealize.ShloMosaic.Lib.ValueIdx
import Idealize.ShloMosaic.Lib.ReduceAll
import Idealize.ShloMosaic.Lib.Pipeline.Value
import Idealize.ShloMosaic.Lib.StableHlo.Predicate

set_option maxRecDepth 16384

noncomputable section

namespace Cert.MsgPass

open Idealize.ShloMosaic Idealize.ShloMosaic.ValueIdx

open Cert.Pre_finite_inputs Cert.Pre_finite_inputs.Facts in
/-- Entry `e` of the reshaped slice of row 0 is entry `(0, e)` of the edge list. -/
private theorem src_read (x1 : IVec S2x640000 32) (e : Fin 640000) :
    shapeCast S640000 (extractStridedSlice S1x640000 ![0, 0] x1 slices_S2x640000_S1x640000_0_0)
      shapeCasts_S1x640000_S640000 (ix1 e) = x1 (ix2 (0 : Fin 2) e) := by
  rw [shapeCast_apply _ shapeCasts_S1x640000_S640000 (ix1 e) (ix2 (0 : Fin 1) e)
    (by rewrite [Shape.rowMajor_val_two, Shape.rowMajor_val_one]; show 0 * 640000 + e.val = e.val; omega)]
  exact extractStridedSlice_apply ![0, 0] x1 slices_S2x640000_S1x640000_0_0 (ix2 (0 : Fin 1) e) (ix2 (0 : Fin 2) e)
    (fun a => match a with
      | ⟨0, _⟩ => by show (0 : Nat) = 0 + 0; omega
      | ⟨1, _⟩ => by show e.val = 0 + e.val; omega)

open Cert.Pre_finite_inputs Cert.Pre_finite_inputs.Facts in
/-- A scalar constant broadcast along the edges is that constant at every edge. -/
private theorem bound_read (c : BitVec 32) (i : S640000.Idx) :
    broadcastInDim S640000 ![] bcast_S_S640000 (constantI S_ 32 c) i = c :=
  broadcastInDim_apply _ bcast_S_S640000 (constantI S_ 32 c) i ix0 (fun a => a.elim0)

private instance : Subsingleton Cert.Pre_finite_inputs.S_.Idx := ⟨fun a b => funext fun d => d.elim0⟩

/-- Under the precondition every source word names a row of the table. -/
theorem src_in_range (x0 : FVec Ideal Cert.Pre_finite_inputs.S10000x128 .f32) (x1 : IVec Cert.Pre_finite_inputs.S2x640000 32)
    (h : Cert.Pre_finite_inputs.fn (F := Ideal) x0 x1 = fun _ => 1#1) : SrcInRange x1 := by
  have h0 := congrFun h ValueIdx.ix0
  dsimp only [Cert.Pre_finite_inputs.fn] at h0
  obtain ⟨h9, h14⟩ := IntOp.andi_eq_one.1 h0
  obtain ⟨_, h8⟩ := IntOp.andi_eq_one.1 h9
  intro e
  have ge := Host.reduce_andi_all _ _ _ _ _ h8 (ix1 e)
  have lt := Host.reduce_andi_all _ _ _ _ _ h14 (ix1 e)
  have ge' := IntOp.cmpi_sge.1 ge
  have lt' := IntOp.cmpi_slt.1 lt
  rw [src_read, bound_read] at ge' lt'
  exact ⟨ge', lt'⟩

end Cert.MsgPass

end
-- ==== Proof.lean ====
/-
  Message passing with sum aggregation: the one-hot matrix-product kernel against gather and segment sum.

  The kernel computes `out[n] = ∑ over edges e with dst e = n of x[src e]` on two cores, each taking half of the
  (padded) edge list in chunks of 1024 edges: per chunk, a one-hot matrix of the source words times the padded table
  gathers the 1024 rows, and a one-hot matrix of the destination words times those rows adds them into the core's
  `[10240, 128]` slab; the two slabs are added and the first 10000 nodes kept.  The reference gathers `x[src]` and
  scatter-adds by `dst`.  Over the extended reals both are the same sum: a destination word that names no node is
  dropped by both (the one-hot column is empty, or lands on a padded node that is sliced off; the scatter drops an
  index outside the operand), and under the precondition every source word names a row of the table, where the
  gather's wrap of negatives and clamp are the identity and the one-hot row selects the same row.  The format
  changes to and from bf16 are the identity at the exact instance; the sums are regrouped by associativity and
  commutativity only.

  The three frames: the two kernel programs' are their generated frame certificates; the reference has no kernel,
  and its frame is its generated run with the result dropped.  The ideal pass rewrote nothing, so `preserves` is
  trivial.
-/
import proofs.«425535_j10651518894406_2_alg».proof.Defs
import proofs.«425535_j10651518894406_2_alg».proof.Proof.Gen.Kernel
import proofs.«425535_j10651518894406_2_alg».proof.Proof.Gen.Kernel.Skeleton
import proofs.«425535_j10651518894406_2_alg».proof.Proof.Gen.Kernel.Loops
import proofs.«425535_j10651518894406_2_alg».proof.Proof.Gen.Kernel.Launch
import proofs.«425535_j10651518894406_2_alg».proof.Proof.Gen.Kernel.Points
import proofs.«425535_j10651518894406_2_alg».proof.Proof.Gen.Kernel.Frame
import proofs.«425535_j10651518894406_2_alg».proof.Proof.Gen.KernelIdeal
import proofs.«425535_j10651518894406_2_alg».proof.Proof.Gen.KernelIdeal.Skeleton
import proofs.«425535_j10651518894406_2_alg».proof.Proof.Gen.KernelIdeal.Loops
import proofs.«425535_j10651518894406_2_alg».proof.Proof.Gen.KernelIdeal.Launch
import proofs.«425535_j10651518894406_2_alg».proof.Proof.Gen.KernelIdeal.Points
import proofs.«425535_j10651518894406_2_alg».proof.Proof.Gen.KernelIdeal.Frame
import proofs.«425535_j10651518894406_2_alg».proof.Proof.Gen.ReferenceIdeal
import proofs.«425535_j10651518894406_2_alg».proof.Proof.Gen.Pre_finite_inputs
import proofs.«425535_j10651518894406_2_alg».proof.Proof.Gen.ReferenceIdeal.Run
import proofs.«425535_j10651518894406_2_alg».proof.Proof.Gen.ReferenceIdeal.Read
import proofs.«425535_j10651518894406_2_alg».proof.Proof.KernelRun
import proofs.«425535_j10651518894406_2_alg».proof.Proof.RefValue
import proofs.«425535_j10651518894406_2_alg».proof.Proof.PreRange
import Idealize.ShloMosaic.Adequacy
import Idealize.ShloMosaic.Init

noncomputable section

namespace Cert.Proof

open Idealize.ShloMosaic Idealize.ShloMosaic.TcCoe Idealize.SL.Sem

/-- Both idealized programs end with `G` of the shared arguments: the kernel by its run read back, the reference by
    its generated run, whose last stage is `G` once the precondition puts every source word in range. -/
theorem algebraic : Cert.algebraic_KernelIdeal_ReferenceIdeal := by
  intro m ρ m' ρ' hpre hagree
  refine ⟨fun c => Cert.MsgPass.G (m ((c : Thread Cert.KernelIdeal.nD Cert.KernelIdeal.τ).loc Cert.KernelIdeal.main_arg0))
      (m ((c : Thread Cert.KernelIdeal.nD Cert.KernelIdeal.τ).loc Cert.KernelIdeal.main_arg1)), Cert.MsgPass.K.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  exact Cert.MsgPass.R.ref_eq _ _ (Cert.MsgPass.src_in_range _ _ (hpre c))

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
